-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x64, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x64, .f32⟩
  | 115 => ⟨S1700000x1, .f32⟩
  | 116 => ⟨S1700000x64, .f32⟩
  | 117 => ⟨S1700000x64, .f32⟩
  | 118 => ⟨S_, .f32⟩
  | 119 => ⟨S100000x64, .f32⟩
  | 120 => ⟨S1700000x1, .i32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000x1, .f32⟩
  | 3 => ⟨S100000x64, .f32⟩
  | 4 => ⟨S100000x64, .f32⟩
  | 5 => ⟨S100000x64, .f32⟩
  | 6 => ⟨S_, .f32⟩
  | 7 => ⟨S100000, .f32⟩
  | 8 => ⟨S100000x1, .f32⟩
  | 9 => ⟨S100000x1, .f32⟩
  | 10 => ⟨S100000x64, .f32⟩
  | 11 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Blocks0.lean ====
/-
  Region 0 (a matrix product: the band of rows times the whole 128 × 128 weight), from blocks to the array.
  The array it writes has 100000 rows and its grid 50 points; point t writes rows 2000·t … 2000·t + 1999, computed by the
  body from the same rows of the first operand and from the whole second operand. So after the region row r of the array
  is row r mod 2000 of the body's value on the band of 2000 rows that holds r: `rows`. The body's arithmetic is not
  opened here; this holds at any float instance and at any contents the region is entered with.
-/
import proofs.«113558_j89859305766966_1_alg».proof.Proof.Gen.KernelIdeal.Frame
import Idealize.ShloMosaic.Lib.Pipeline.Value
import Idealize.ShloMosaic.Lib.ValueIdx

set_option maxRecDepth 16384

noncomputable section

namespace Cert.KernelIdeal.Blocks0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- Rows 2000·t … 2000·t + 1999 of an array of 100000 rows. -/
def band (X : Vec F S100000x128 .f32) (t : Nat) (ht : t < 50) : Vec F S2000x128 .f32 := fun j =>
  X (ix2 (⟨t * 2000 + (j 0).val, by have := idx2_lt0 j; omega⟩ : Fin 100000) (⟨(j 1).val, idx2_lt1 j⟩ : Fin 128))

/-- A band depends on its point only through the point's number. -/
theorem band_congr (X : Vec F S100000x128 .f32) {t t' : Nat} (h : t = t') (ht : t < 50) (ht' : t' < 50) :
    band X t ht = band X t' ht' := by subst h; rfl

/-- What the region leaves in its output array: row r is row r mod 2000 of the body's value on the band that holds r. -/
def rows (X : Vec F S100000x128 .f32) (B : Vec F S128x128 .f32) : Vec F S100000x128 .f32 := fun i =>
  k0_pay1 (band X ((i 0).val / 2000) (by have := idx2_lt0 i; omega)) B
    (ix2 (⟨(i 0).val % 2000, Nat.mod_lt _ (by decide)⟩ : Fin 2000) (⟨(i 1).val, idx2_lt1 i⟩ : Fin 128))

/-- `rows` at row 2000·t + p. -/
theorem rows_at (X : Vec F S100000x128 .f32) (B : Vec F S128x128 .f32) (t : Nat) (ht : t < 50) (p : Fin 2000) (q : Fin 128) :
    rows X B (ix2 (⟨t * 2000 + p.val, by have := p.isLt; omega⟩ : Fin 100000) q) = k0_pay1 (band X t ht) B (ix2 p q) := by
  have h1 : (t * 2000 + p.val) / 2000 = t := by have := p.isLt; omega
  have h2 : (t * 2000 + p.val) % 2000 = p.val := by have := p.isLt; omega
  show k0_pay1 (band X ((t * 2000 + p.val) / 2000) _) B (ix2 (⟨(t * 2000 + p.val) % 2000, _⟩ : Fin 2000) (⟨q.val, _⟩ : Fin 128)) = _
  rw [band_congr X h1 _ ht]
  simp only [h2]

/-- The printed index maps over the grid: the row-blocked windows sit at block (t, 0), the whole operand at (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 50 := by
  have h := t.isLt
  have e : cfg0.N = 50 := N_0
  omega

/-- What point t writes back is block t of `rows` of the arrays the region is entered with. -/
theorem flushed_eq (c : Dev nD) (t : Fin cfg0.N) :
    (dat0 V c).flushed 2 t = ((cfg0.win 2).blk t).view.read (Elt F) (rows (V c main_arg0) (V c main_arg2)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x128) origin]
  obtain ⟨e0, e1, e2, e3, e4, e5⟩ := index_maps t
  have ht := point_lt t
  have hb0 : iblk0 V c 0 t = band (V c main_arg0) t.val ht := by
    funext y
    show V c main_arg0 (((cfg0.win 0).blk t).view.emb y) = V c main_arg0 (ix2 (⟨t.val * 2000 + (y 0).val, _⟩ : Fin 100000) (⟨(y 1).val, _⟩ : Fin 128))
    refine congrArg _ ?_
    funext a; apply Fin.ext
    match a with
    | ⟨0, _⟩ => show win0_0.index t (0 : Fin 2) * 2000 + 1 * (y 0).val = t.val * 2000 + (y 0).val; omega
    | ⟨1, _⟩ => show win0_0.index t (1 : Fin 2) * 128 + 1 * (y 1).val = (y 1).val; omega
  have hb1 : iblk0 V c 1 t = V c main_arg2 := by
    funext y
    show V c main_arg2 (((cfg0.win 1).blk t).view.emb y) = V c main_arg2 y
    refine congrArg _ ?_
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  funext j
  show k0_pay1 (iblk0 V c 0 t) (iblk0 V c 1 t) j = rows (V c main_arg0) (V c main_arg2) (((cfg0.win 2).blk t).view.emb j)
  have hj : ((cfg0.win 2).blk t).view.emb j
      = ix2 (⟨t.val * 2000 + (j 0).val, by have := idx2_lt0 j; omega⟩ : Fin 100000) (⟨(j 1).val, idx2_lt1 j⟩ : Fin 128) := by
    funext a; apply Fin.ext
    match a with
    | ⟨0, _⟩ => show win0_2.index t (0 : Fin 2) * 2000 + 1 * (j 0).val = t.val * 2000 + (j 0).val; omega
    | ⟨1, _⟩ => show win0_2.index t (1 : Fin 2) * 128 + 1 * (j 1).val = (j 1).val; omega
  rw [hb0, hb1, hj, rows_at (V c main_arg0) (V c main_arg2) t.val ht ⟨(j 0).val, idx2_lt0 j⟩ ⟨(j 1).val, idx2_lt1 j⟩]
  exact congrArg _ (eq_ix2 j)

/-- An index of the array is in point t's block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every row of the array lies in the block of the point r / 2000. -/
theorem covered (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  let t : Fin cfg0.N := ⟨(i 0).val / 2000, by rw [show cfg0.N = 50 from N_0]; omega⟩
  obtain ⟨e0, e1, e2, e3, e4, e5⟩ := index_maps t
  refine ⟨t, flush0_2 t, ?_⟩
  rw [mem_blk]
  have hv : t.val = (i 0).val / 2000 := rfl
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region, whatever the region is entered with. -/
theorem final (c : Dev nD) : (dat0 V c).arrAt 2 cfg0.N = rows (V c main_arg0) (V c main_arg2) :=
  (dat0 V c).arrAt_eq_of_cover 2 (rows (V c main_arg0) (V c main_arg2)) (fun t _ => flushed_eq V c t) covered

end Cert.KernelIdeal.Blocks0

end
-- ==== Proof.Blocks1.lean ====
/-
  Region 1 (a row of biases added, then the maximum with zero), from blocks to the array.
  The array it writes has 100000 rows and its grid 50 points; point t writes rows 2000·t … 2000·t + 1999, computed by the
  body from the same rows of the first operand and from the whole second operand. So after the region row r of the array
  is row r mod 2000 of the body's value on the band of 2000 rows that holds r: `rows`. The body's arithmetic is not
  opened here; this holds at any float instance and at any contents the region is entered with.
-/
import proofs.«113558_j89859305766966_1_alg».proof.Proof.Gen.KernelIdeal.Frame
import Idealize.ShloMosaic.Lib.Pipeline.Value
import Idealize.ShloMosaic.Lib.ValueIdx

set_option maxRecDepth 16384

noncomputable section

namespace Cert.KernelIdeal.Blocks1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- Rows 2000·t … 2000·t + 1999 of an array of 100000 rows. -/
def band (X : Vec F S100000x128 .f32) (t : Nat) (ht : t < 50) : Vec F S2000x128 .f32 := fun j =>
  X (ix2 (⟨t * 2000 + (j 0).val, by have := idx2_lt0 j; omega⟩ : Fin 100000) (⟨(j 1).val, idx2_lt1 j⟩ : Fin 128))

/-- A band depends on its point only through the point's number. -/
theorem band_congr (X : Vec F S100000x128 .f32) {t t' : Nat} (h : t = t') (ht : t < 50) (ht' : t' < 50) :
    band X t ht = band X t' ht' := by subst h; rfl

/-- What the region leaves in its output array: row r is row r mod 2000 of the body's value on the band that holds r. -/
def rows (X : Vec F S100000x128 .f32) (B : Vec F S1x128 .f32) : Vec F S100000x128 .f32 := fun i =>
  k1_pay1 (band X ((i 0).val / 2000) (by have := idx2_lt0 i; omega)) B
    (ix2 (⟨(i 0).val % 2000, Nat.mod_lt _ (by decide)⟩ : Fin 2000) (⟨(i 1).val, idx2_lt1 i⟩ : Fin 128))

/-- `rows` at row 2000·t + p. -/
theorem rows_at (X : Vec F S100000x128 .f32) (B : Vec F S1x128 .f32) (t : Nat) (ht : t < 50) (p : Fin 2000) (q : Fin 128) :
    rows X B (ix2 (⟨t * 2000 + p.val, by have := p.isLt; omega⟩ : Fin 100000) q) = k1_pay1 (band X t ht) B (ix2 p q) := by
  have h1 : (t * 2000 + p.val) / 2000 = t := by have := p.isLt; omega
  have h2 : (t * 2000 + p.val) % 2000 = p.val := by have := p.isLt; omega
  show k1_pay1 (band X ((t * 2000 + p.val) / 2000) _) B (ix2 (⟨(t * 2000 + p.val) % 2000, _⟩ : Fin 2000) (⟨q.val, _⟩ : Fin 128)) = _
  rw [band_congr X h1 _ ht]
  simp only [h2]

/-- The printed index maps over the grid: the row-blocked windows sit at block (t, 0), the whole operand at (0, 0). -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 50 := by
  have h := t.isLt
  have e : cfg1.N = 50 := N_1
  omega

/-- What point t writes back is block t of `rows` of the arrays the region is entered with. -/
theorem flushed_eq (c : Dev nD) (t : Fin cfg1.N) :
    (dat1 V c).flushed 2 t = ((cfg1.win 2).blk t).view.read (Elt F) (rows (V c main_v43) (V c main_v44)) := by
  show (cfg1.win 2).cut (grid1.coords t) ((dat1 V c).after 2 t) = _
  rw [after1_2]
  unfold out1_2
  rw [View.canon_unit_zero origin]
  simp only [View.ld_unit_zero (S := S2000x128) origin, View.ld_unit_zero (S := S1x128) origin]
  obtain ⟨e0, e1, e2, e3, e4, e5⟩ := index_maps t
  have ht := point_lt t
  have hb0 : iblk1 V c 0 t = band (V c main_v43) t.val ht := by
    funext y
    show V c main_v43 (((cfg1.win 0).blk t).view.emb y) = V c main_v43 (ix2 (⟨t.val * 2000 + (y 0).val, _⟩ : Fin 100000) (⟨(y 1).val, _⟩ : Fin 128))
    refine congrArg _ ?_
    funext a; apply Fin.ext
    match a with
    | ⟨0, _⟩ => show win1_0.index t (0 : Fin 2) * 2000 + 1 * (y 0).val = t.val * 2000 + (y 0).val; omega
    | ⟨1, _⟩ => show win1_0.index t (1 : Fin 2) * 128 + 1 * (y 1).val = (y 1).val; omega
  have hb1 : iblk1 V c 1 t = V c main_v44 := by
    funext y
    show V c main_v44 (((cfg1.win 1).blk t).view.emb y) = V c main_v44 y
    refine congrArg _ ?_
    funext a; apply Fin.ext
    match a with
    | ⟨0, _⟩ => show win1_1.index t (0 : Fin 2) * 1 + 1 * (y 0).val = (y 0).val; omega
    | ⟨1, _⟩ => show win1_1.index t (1 : Fin 2) * 128 + 1 * (y 1).val = (y 1).val; omega
  funext j
  show k1_pay1 (iblk1 V c 0 t) (iblk1 V c 1 t) j = rows (V c main_v43) (V c main_v44) (((cfg1.win 2).blk t).view.emb j)
  have hj : ((cfg1.win 2).blk t).view.emb j
      = ix2 (⟨t.val * 2000 + (j 0).val, by have := idx2_lt0 j; omega⟩ : Fin 100000) (⟨(j 1).val, idx2_lt1 j⟩ : Fin 128) := by
    funext a; apply Fin.ext
    match a with
    | ⟨0, _⟩ => show win1_2.index t (0 : Fin 2) * 2000 + 1 * (j 0).val = t.val * 2000 + (j 0).val; omega
    | ⟨1, _⟩ => show win1_2.index t (1 : Fin 2) * 128 + 1 * (j 1).val = (j 1).val; omega
  rw [hb0, hb1, hj, rows_at (V c main_v43) (V c main_v44) t.val ht ⟨(j 0).val, idx2_lt0 j⟩ ⟨(j 1).val, idx2_lt1 j⟩]
  exact congrArg _ (eq_ix2 j)

/-- An index of the array is in point t's block iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- Every row of the array lies in the block of the point r / 2000. -/
theorem covered (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  let t : Fin cfg1.N := ⟨(i 0).val / 2000, by rw [show cfg1.N = 50 from N_1]; omega⟩
  obtain ⟨e0, e1, e2, e3, e4, e5⟩ := index_maps t
  refine ⟨t, flush1_2 t, ?_⟩
  rw [mem_blk]
  have hv : t.val = (i 0).val / 2000 := rfl
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The output array after the region, whatever the region is entered with. -/
theorem final (c : Dev nD) : (dat1 V c).arrAt 2 cfg1.N = rows (V c main_v43) (V c main_v44) :=
  (dat1 V c).arrAt_eq_of_cover 2 (rows (V c main_v43) (V c main_v44)) (fun t _ => flushed_eq V c t) covered

end Cert.KernelIdeal.Blocks1

end
-- ==== Proof.Blocks2.lean ====
/-
  Region 2 (a matrix product: the band of rows times the whole 128 × 64 weight), from blocks to the array.
  The array it writes has 100000 rows and its grid 50 points; point t writes rows 2000·t … 2000·t + 1999, computed by the
  body from the same rows of the first operand and from the whole second operand. So after the region row r of the array
  is row r mod 2000 of the body's value on the band of 2000 rows that holds r: `rows`. The body's arithmetic is not
  opened here; this holds at any float instance and at any contents the region is entered with.
-/
import proofs.«113558_j89859305766966_1_alg».proof.Proof.Gen.KernelIdeal.Frame
import Idealize.ShloMosaic.Lib.Pipeline.Value
import Idealize.ShloMosaic.Lib.ValueIdx

set_option maxRecDepth 16384

noncomputable section

namespace Cert.KernelIdeal.Blocks2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- Rows 2000·t … 2000·t + 1999 of an array of 100000 rows. -/
def band (X : Vec F S100000x128 .f32) (t : Nat) (ht : t < 50) : Vec F S2000x128 .f32 := fun j =>
  X (ix2 (⟨t * 2000 + (j 0).val, by have := idx2_lt0 j; omega⟩ : Fin 100000) (⟨(j 1).val, idx2_lt1 j⟩ : Fin 128))

/-- A band depends on its point only through the point's number. -/
theorem band_congr (X : Vec F S100000x128 .f32) {t t' : Nat} (h : t = t') (ht : t < 50) (ht' : t' < 50) :
    band X t ht = band X t' ht' := by subst h; rfl

/-- What the region leaves in its output array: row r is row r mod 2000 of the body's value on the band that holds r. -/
def rows (X : Vec F S100000x128 .f32) (B : Vec F S128x64 .f32) : Vec F S100000x64 .f32 := fun i =>
  k2_pay1 (band X ((i 0).val / 2000) (by have := idx2_lt0 i; omega)) B
    (ix2 (⟨(i 0).val % 2000, Nat.mod_lt _ (by decide)⟩ : Fin 2000) (⟨(i 1).val, idx2_lt1 i⟩ : Fin 64))

/-- `rows` at row 2000·t + p. -/
theorem rows_at (X : Vec F S100000x128 .f32) (B : Vec F S128x64 .f32) (t : Nat) (ht : t < 50) (p : Fin 2000) (q : Fin 64) :
    rows X B (ix2 (⟨t * 2000 + p.val, by have := p.isLt; omega⟩ : Fin 100000) q) = k2_pay1 (band X t ht) B (ix2 p q) := by
  have h1 : (t * 2000 + p.val) / 2000 = t := by have := p.isLt; omega
  have h2 : (t * 2000 + p.val) % 2000 = p.val := by have := p.isLt; omega
  show k2_pay1 (band X ((t * 2000 + p.val) / 2000) _) B (ix2 (⟨(t * 2000 + p.val) % 2000, _⟩ : Fin 2000) (⟨q.val, _⟩ : Fin 64)) = _
  rw [band_congr X h1 _ ht]
  simp only [h2]

/-- The printed index maps over the grid: the row-blocked windows sit at block (t, 0), the whole operand at (0, 0). -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem point_lt (t : Fin cfg2.N) : t.val < 50 := by
  have h := t.isLt
  have e : cfg2.N = 50 := N_2
  omega

/-- What point t writes back is block t of `rows` of the arrays the region is entered with. -/
theorem flushed_eq (c : Dev nD) (t : Fin cfg2.N) :
    (dat2 V c).flushed 2 t = ((cfg2.win 2).blk t).view.read (Elt F) (rows (V c main_v45) (V c main_arg4)) := by
  show (cfg2.win 2).cut (grid2.coords t) ((dat2 V c).after 2 t) = _
  rw [after2_2]
  unfold out2_2
  rw [View.canon_unit_zero origin]
  simp only [View.ld_unit_zero (S := S2000x128) origin, View.ld_unit_zero (S := S128x64) origin]
  obtain ⟨e0, e1, e2, e3, e4, e5⟩ := index_maps t
  have ht := point_lt t
  have hb0 : iblk2 V c 0 t = band (V c main_v45) t.val ht := by
    funext y
    show V c main_v45 (((cfg2.win 0).blk t).view.emb y) = V c main_v45 (ix2 (⟨t.val * 2000 + (y 0).val, _⟩ : Fin 100000) (⟨(y 1).val, _⟩ : Fin 128))
    refine congrArg _ ?_
    funext a; apply Fin.ext
    match a with
    | ⟨0, _⟩ => show win2_0.index t (0 : Fin 2) * 2000 + 1 * (y 0).val = t.val * 2000 + (y 0).val; omega
    | ⟨1, _⟩ => show win2_0.index t (1 : Fin 2) * 128 + 1 * (y 1).val = (y 1).val; omega
  have hb1 : iblk2 V c 1 t = V c main_arg4 := by
    funext y
    show V c main_arg4 (((cfg2.win 1).blk t).view.emb y) = V c main_arg4 y
    refine congrArg _ ?_
    funext a; apply Fin.ext
    match a with
    | ⟨0, _⟩ => show win2_1.index t (0 : Fin 2) * 128 + 1 * (y 0).val = (y 0).val; omega
    | ⟨1, _⟩ => show win2_1.index t (1 : Fin 2) * 64 + 1 * (y 1).val = (y 1).val; omega
  funext j
  show k2_pay1 (iblk2 V c 0 t) (iblk2 V c 1 t) j = rows (V c main_v45) (V c main_arg4) (((cfg2.win 2).blk t).view.emb j)
  have hj : ((cfg2.win 2).blk t).view.emb j
      = ix2 (⟨t.val * 2000 + (j 0).val, by have := idx2_lt0 j; omega⟩ : Fin 100000) (⟨(j 1).val, idx2_lt1 j⟩ : Fin 64) := by
    funext a; apply Fin.ext
    match a with
    | ⟨0, _⟩ => show win2_2.index t (0 : Fin 2) * 2000 + 1 * (j 0).val = t.val * 2000 + (j 0).val; omega
    | ⟨1, _⟩ => show win2_2.index t (1 : Fin 2) * 64 + 1 * (j 1).val = (j 1).val; omega
  rw [hb0, hb1, hj, rows_at (V c main_v45) (V c main_arg4) t.val ht ⟨(j 0).val, idx2_lt0 j⟩ ⟨(j 1).val, idx2_lt1 j⟩]
  exact congrArg _ (eq_ix2 j)

/-- An index of the array is in point t's block iff each coordinate is in the block's range on its axis. -/
theorem mem_blk (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v46).slice (win2_2.rect t)).set ↔ _
  rw [View.set_slice_whole, Rect.mem_set_unit]
  exact Iff.rfl

/-- Every row of the array lies in the block of the point r / 2000. -/
theorem covered (i : S100000x64.Idx) :
    ∃ t : Fin cfg2.N, (cfg2.win 2).flush t = true ∧ i ∈ ((cfg2.win 2).blk t).view.set := by
  have hi0 : (i 0).val < 100000 := idx2_lt0 i
  have hi1 : (i 1).val < 64 := idx2_lt1 i
  let t : Fin cfg2.N := ⟨(i 0).val / 2000, by rw [show cfg2.N = 50 from N_2]; omega⟩
  obtain ⟨e0, e1, e2, e3, e4, e5⟩ := index_maps t
  refine ⟨t, flush2_2 t, ?_⟩
  rw [mem_blk]
  have hv : t.val = (i 0).val / 2000 := rfl
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- The output array after the region, whatever the region is entered with. -/
theorem final (c : Dev nD) : (dat2 V c).arrAt 2 cfg2.N = rows (V c main_v45) (V c main_arg4) :=
  (dat2 V c).arrAt_eq_of_cover 2 (rows (V c main_v45) (V c main_arg4)) (fun t _ => flushed_eq V c t) covered

end Cert.KernelIdeal.Blocks2

end
-- ==== Proof.Blocks3.lean ====
/-
  Region 3 (a row of biases added, then each row's log-softmax), from blocks to the array.
  The array it writes has 100000 rows and its grid 50 points; point t writes rows 2000·t … 2000·t + 1999, computed by the
  body from the same rows of the first operand and from the whole second operand. So after the region row r of the array
  is row r mod 2000 of the body's value on the band of 2000 rows that holds r: `rows`. The body's arithmetic is not
  opened here; this holds at any float instance and at any contents the region is entered with.
-/
import proofs.«113558_j89859305766966_1_alg».proof.Proof.Gen.KernelIdeal.Frame
import Idealize.ShloMosaic.Lib.Pipeline.Value
import Idealize.ShloMosaic.Lib.ValueIdx

set_option maxRecDepth 16384

noncomputable section

namespace Cert.KernelIdeal.Blocks3

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- Rows 2000·t … 2000·t + 1999 of an array of 100000 rows. -/
def band (X : Vec F S100000x64 .f32) (t : Nat) (ht : t < 50) : Vec F S2000x64 .f32 := fun j =>
  X (ix2 (⟨t * 2000 + (j 0).val, by have := idx2_lt0 j; omega⟩ : Fin 100000) (⟨(j 1).val, idx2_lt1 j⟩ : Fin 64))

/-- A band depends on its point only through the point's number. -/
theorem band_congr (X : Vec F S100000x64 .f32) {t t' : Nat} (h : t = t') (ht : t < 50) (ht' : t' < 50) :
    band X t ht = band X t' ht' := by subst h; rfl

/-- What the region leaves in its output array: row r is row r mod 2000 of the body's value on the band that holds r. -/
def rows (X : Vec F S100000x64 .f32) (B : Vec F S1x64 .f32) : Vec F S100000x64 .f32 := fun i =>
  k3_pay1 (band X ((i 0).val / 2000) (by have := idx2_lt0 i; omega)) B
    (ix2 (⟨(i 0).val % 2000, Nat.mod_lt _ (by decide)⟩ : Fin 2000) (⟨(i 1).val, idx2_lt1 i⟩ : Fin 64))

/-- `rows` at row 2000·t + p. -/
theorem rows_at (X : Vec F S100000x64 .f32) (B : Vec F S1x64 .f32) (t : Nat) (ht : t < 50) (p : Fin 2000) (q : Fin 64) :
    rows X B (ix2 (⟨t * 2000 + p.val, by have := p.isLt; omega⟩ : Fin 100000) q) = k3_pay1 (band X t ht) B (ix2 p q) := by
  have h1 : (t * 2000 + p.val) / 2000 = t := by have := p.isLt; omega
  have h2 : (t * 2000 + p.val) % 2000 = p.val := by have := p.isLt; omega
  show k3_pay1 (band X ((t * 2000 + p.val) / 2000) _) B (ix2 (⟨(t * 2000 + p.val) % 2000, _⟩ : Fin 2000) (⟨q.val, _⟩ : Fin 64)) = _
  rw [band_congr X h1 _ ht]
  simp only [h2]

/-- The printed index maps over the grid: the row-blocked windows sit at block (t, 0), the whole operand at (0, 0). -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem point_lt (t : Fin cfg3.N) : t.val < 50 := by
  have h := t.isLt
  have e : cfg3.N = 50 := N_3
  omega

/-- What point t writes back is block t of `rows` of the arrays the region is entered with. -/
theorem flushed_eq (c : Dev nD) (t : Fin cfg3.N) :
    (dat3 V c).flushed 2 t = ((cfg3.win 2).blk t).view.read (Elt F) (rows (V c main_v59) (V c main_v60)) := by
  show (cfg3.win 2).cut (grid3.coords t) ((dat3 V c).after 2 t) = _
  rw [after3_2]
  unfold out3_2
  rw [View.canon_unit_zero origin]
  simp only [View.ld_unit_zero (S := S2000x64) origin, View.ld_unit_zero (S := S1x64) origin]
  obtain ⟨e0, e1, e2, e3, e4, e5⟩ := index_maps t
  have ht := point_lt t
  have hb0 : iblk3 V c 0 t = band (V c main_v59) t.val ht := by
    funext y
    show V c main_v59 (((cfg3.win 0).blk t).view.emb y) = V c main_v59 (ix2 (⟨t.val * 2000 + (y 0).val, _⟩ : Fin 100000) (⟨(y 1).val, _⟩ : Fin 64))
    refine congrArg _ ?_
    funext a; apply Fin.ext
    match a with
    | ⟨0, _⟩ => show win3_0.index t (0 : Fin 2) * 2000 + 1 * (y 0).val = t.val * 2000 + (y 0).val; omega
    | ⟨1, _⟩ => show win3_0.index t (1 : Fin 2) * 64 + 1 * (y 1).val = (y 1).val; omega
  have hb1 : iblk3 V c 1 t = V c main_v60 := by
    funext y
    show V c main_v60 (((cfg3.win 1).blk t).view.emb y) = V c main_v60 y
    refine congrArg _ ?_
    funext a; apply Fin.ext
    match a with
    | ⟨0, _⟩ => show win3_1.index t (0 : Fin 2) * 1 + 1 * (y 0).val = (y 0).val; omega
    | ⟨1, _⟩ => show win3_1.index t (1 : Fin 2) * 64 + 1 * (y 1).val = (y 1).val; omega
  funext j
  show k3_pay1 (iblk3 V c 0 t) (iblk3 V c 1 t) j = rows (V c main_v59) (V c main_v60) (((cfg3.win 2).blk t).view.emb j)
  have hj : ((cfg3.win 2).blk t).view.emb j
      = ix2 (⟨t.val * 2000 + (j 0).val, by have := idx2_lt0 j; omega⟩ : Fin 100000) (⟨(j 1).val, idx2_lt1 j⟩ : Fin 64) := by
    funext a; apply Fin.ext
    match a with
    | ⟨0, _⟩ => show win3_2.index t (0 : Fin 2) * 2000 + 1 * (j 0).val = t.val * 2000 + (j 0).val; omega
    | ⟨1, _⟩ => show win3_2.index t (1 : Fin 2) * 64 + 1 * (j 1).val = (j 1).val; omega
  rw [hb0, hb1, hj, rows_at (V c main_v59) (V c main_v60) t.val ht ⟨(j 0).val, idx2_lt0 j⟩ ⟨(j 1).val, idx2_lt1 j⟩]
  exact congrArg _ (eq_ix2 j)

/-- An index of the array is in point t's block iff each coordinate is in the block's range on its axis. -/
theorem mem_blk (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v61).slice (win3_2.rect t)).set ↔ _
  rw [View.set_slice_whole, Rect.mem_set_unit]
  exact Iff.rfl

/-- Every row of the array lies in the block of the point r / 2000. -/
theorem covered (i : S100000x64.Idx) :
    ∃ t : Fin cfg3.N, (cfg3.win 2).flush t = true ∧ i ∈ ((cfg3.win 2).blk t).view.set := by
  have hi0 : (i 0).val < 100000 := idx2_lt0 i
  have hi1 : (i 1).val < 64 := idx2_lt1 i
  let t : Fin cfg3.N := ⟨(i 0).val / 2000, by rw [show cfg3.N = 50 from N_3]; omega⟩
  obtain ⟨e0, e1, e2, e3, e4, e5⟩ := index_maps t
  refine ⟨t, flush3_2 t, ?_⟩
  rw [mem_blk]
  have hv : t.val = (i 0).val / 2000 := rfl
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- The output array after the region, whatever the region is entered with. -/
theorem final (c : Dev nD) : (dat3 V c).arrAt 2 cfg3.N = rows (V c main_v59) (V c main_v60) :=
  (dat3 V c).arrAt_eq_of_cover 2 (rows (V c main_v59) (V c main_v60)) (fun t _ => flushed_eq V c t) covered

end Cert.KernelIdeal.Blocks3

end
-- ==== Proof.Products.lean ====
/-
  The two matrix products at the ideal values. A band of rows times a whole weight is, entry by entry, the sum over the 128
  shared coordinates of the products; so is the host's `dot_general` of the whole arrays. Hence region 0's and region 2's
  output arrays and the reference's two products are one function of their operands.
-/
import proofs.«113558_j89859305766966_1_alg».proof.Proof.Blocks0
import proofs.«113558_j89859305766966_1_alg».proof.Proof.Blocks2
import proofs.«113558_j89859305766966_1_alg».proof.Proof.Gen.ReferenceIdeal
import Idealize.ShloMosaic.PureOps.Ideal.Laws
import Idealize.ShloMosaic.PureOps.Reduce
import Idealize.ShloMosaic.Lib.Pipeline.Value
import Idealize.ShloMosaic.Lib.ValueIdx
import Idealize.ShloMosaic.Lib.ValueLayout

noncomputable section

namespace Cert.Products

open Idealize.ShloMosaic Idealize.ShloMosaic.ValueIdx

/-! ## The body's products on a band of 2000 rows -/

section Band
open Cert.KernelIdeal Cert.KernelIdeal.Gen

/-- The left operand's index at output index i and shared coordinate c keeps i's row. -/
theorem band128_lhs_row (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and its column is the shared coordinate. -/
theorem band128_lhs_col (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
/-- The right operand's index has the shared coordinate as its row … -/
theorem band128_rhs_row (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
/-- … and keeps i's column. -/
theorem band128_rhs_col (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Re-indexing the one shared axis by k : Fin 128, the left operand is read at (p, k). -/
theorem band128_lhs_at (p : Fin 2000) (q : Fin 128) (k : Fin 128) :
    dot_S2000x128_S128x128_S2000x128_1_0_0_1_n_n.lhsIdx (ix2 p q) ((contrEquiv1 dot_S2000x128_S128x128_S2000x128_1_0_0_1_n_n 128 rfl rfl).symm k) = ix2 p k := by
  have hk := contrEquiv1_symm_val dot_S2000x128_S128x128_S2000x128_1_0_0_1_n_n 128 rfl rfl k
  exact funext fun a => Fin.ext (by
    match a with
    | ⟨0, _⟩ => exact band128_lhs_row _ _
    | ⟨1, _⟩ => exact (band128_lhs_col _ _).trans hk)
/-- … and the right operand at (k, q). -/
theorem band128_rhs_at (p : Fin 2000) (q : Fin 128) (k : Fin 128) :
    dot_S2000x128_S128x128_S2000x128_1_0_0_1_n_n.rhsIdx (ix2 p q) ((contrEquiv1 dot_S2000x128_S128x128_S2000x128_1_0_0_1_n_n 128 rfl rfl).symm k) = ix2 k q := by
  have hk := contrEquiv1_symm_val dot_S2000x128_S128x128_S2000x128_1_0_0_1_n_n 128 rfl rfl k
  exact funext fun a => Fin.ext (by
    match a with
    | ⟨0, _⟩ => exact (band128_rhs_row _ _).trans hk
    | ⟨1, _⟩ => exact band128_rhs_col _ _)

/-- Region 0's body on a band: entry (p, q) is row p of the band against column q of the weight. -/
theorem pay0_apply (xb : Vec Ideal S2000x128 .f32) (w : Vec Ideal S128x128 .f32) (p : Fin 2000) (q : Fin 128) :
    k0_pay1 (F := Ideal) xb w (ix2 p q) = ∑ k : Fin 128, xb (ix2 p k) * w (ix2 k q) := by
  unfold k0_pay1
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  rw [band128_lhs_at p q k, band128_rhs_at p q k]
  rfl

/-- The left operand's index at output index i and shared coordinate c keeps i's row. -/
theorem band64_lhs_row (i : S2000x64.Idx) (c : dot_S2000x128_S128x64_S2000x64_1_0_0_1_n_n.contr.Idx) :
    (dot_S2000x128_S128x64_S2000x64_1_0_0_1_n_n.lhsIdx i c 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- … and its column is the shared coordinate. -/
theorem band64_lhs_col (i : S2000x64.Idx) (c : dot_S2000x128_S128x64_S2000x64_1_0_0_1_n_n.contr.Idx) :
    (dot_S2000x128_S128x64_S2000x64_1_0_0_1_n_n.lhsIdx i c 1).val = (c ⟨0, by decide⟩).val :=
  dot_S2000x128_S128x64_S2000x64_1_0_0_1_n_n.lhsIdx_val_of_single rfl i c
/-- The right operand's index has the shared coordinate as its row … -/
theorem band64_rhs_row (i : S2000x64.Idx) (c : dot_S2000x128_S128x64_S2000x64_1_0_0_1_n_n.contr.Idx) :
    (dot_S2000x128_S128x64_S2000x64_1_0_0_1_n_n.rhsIdx i c 0).val = (c ⟨0, by decide⟩).val :=
  dot_S2000x128_S128x64_S2000x64_1_0_0_1_n_n.rhsIdx_val_of_single rfl i c
/-- … and keeps i's column. -/
theorem band64_rhs_col (i : S2000x64.Idx) (c : dot_S2000x128_S128x64_S2000x64_1_0_0_1_n_n.contr.Idx) :
    (dot_S2000x128_S128x64_S2000x64_1_0_0_1_n_n.rhsIdx i c 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Re-indexing the one shared axis by k : Fin 128, the left operand is read at (p, k). -/
theorem band64_lhs_at (p : Fin 2000) (q : Fin 64) (k : Fin 128) :
    dot_S2000x128_S128x64_S2000x64_1_0_0_1_n_n.lhsIdx (ix2 p q) ((contrEquiv1 dot_S2000x128_S128x64_S2000x64_1_0_0_1_n_n 128 rfl rfl).symm k) = ix2 p k := by
  have hk := contrEquiv1_symm_val dot_S2000x128_S128x64_S2000x64_1_0_0_1_n_n 128 rfl rfl k
  exact funext fun a => Fin.ext (by
    match a with
    | ⟨0, _⟩ => exact band64_lhs_row _ _
    | ⟨1, _⟩ => exact (band64_lhs_col _ _).trans hk)
/-- … and the right operand at (k, q). -/
theorem band64_rhs_at (p : Fin 2000) (q : Fin 64) (k : Fin 128) :
    dot_S2000x128_S128x64_S2000x64_1_0_0_1_n_n.rhsIdx (ix2 p q) ((contrEquiv1 dot_S2000x128_S128x64_S2000x64_1_0_0_1_n_n 128 rfl rfl).symm k) = ix2 k q := by
  have hk := contrEquiv1_symm_val dot_S2000x128_S128x64_S2000x64_1_0_0_1_n_n 128 rfl rfl k
  exact funext fun a => Fin.ext (by
    match a with
    | ⟨0, _⟩ => exact (band64_rhs_row _ _).trans hk
    | ⟨1, _⟩ => exact band64_rhs_col _ _)

/-- Region 2's body on a band: entry (p, q) is row p of the band against column q of the weight. -/
theorem pay2_apply (xb : Vec Ideal S2000x128 .f32) (w : Vec Ideal S128x64 .f32) (p : Fin 2000) (q : Fin 64) :
    k2_pay1 (F := Ideal) xb w (ix2 p q) = ∑ k : Fin 128, xb (ix2 p k) * w (ix2 k q) := by
  unfold k2_pay1
  refine (Ideal.matmul_constant_zero_apply dot_S2000x128_S128x64_S2000x64_1_0_0_1_n_n none _ _ (ix2 p q)).trans ?_
  rw [← Equiv.sum_comp (contrEquiv1 dot_S2000x128_S128x64_S2000x64_1_0_0_1_n_n 128 rfl rfl).symm]
  refine Finset.sum_congr rfl fun k _ => ?_
  rw [band64_lhs_at p q k, band64_rhs_at p q k, shapeCast_self]
  rfl

/-- Row r of the array is row r mod 2000 of the band r / 2000. -/
theorem row_split (r : Fin 100000) : r.val / 2000 * 2000 + r.val % 2000 = r.val := by omega

end Band

/-- Region 0's output array, entry (r, q): row r of the first operand against column q of the 128 × 128 weight. -/
theorem rows0_apply (X : Vec Ideal Cert.KernelIdeal.S100000x128 .f32) (W : Vec Ideal Cert.KernelIdeal.S128x128 .f32)
    (r : Fin 100000) (q : Fin 128) :
    Cert.KernelIdeal.Blocks0.rows (F := Ideal) X W (ix2 r q) = ∑ k : Fin 128, X (ix2 r k) * W (ix2 k q) := by
  have hr := r.isLt
  have ht : r.val / 2000 < 50 := by omega
  have e : Cert.KernelIdeal.Blocks0.rows (F := Ideal) X W (ix2 r q)
      = Cert.KernelIdeal.Gen.k0_pay1 (F := Ideal) (Cert.KernelIdeal.Blocks0.band X (r.val / 2000) ht) W
          (ix2 (⟨r.val % 2000, Nat.mod_lt _ (by decide)⟩ : Fin 2000) q) := rfl
  rw [e, pay0_apply]
  refine Finset.sum_congr rfl fun k _ => ?_
  refine congrArg (fun x => X x * W (ix2 k q)) ?_
  funext a; apply Fin.ext
  match a with
  | ⟨0, _⟩ => exact row_split r
  | ⟨1, _⟩ => rfl

/-- Region 2's output array, entry (r, q): row r of the first operand against column q of the 128 × 64 weight. -/
theorem rows2_apply (X : Vec Ideal Cert.KernelIdeal.S100000x128 .f32) (W : Vec Ideal Cert.KernelIdeal.S128x64 .f32)
    (r : Fin 100000) (q : Fin 64) :
    Cert.KernelIdeal.Blocks2.rows (F := Ideal) X W (ix2 r q) = ∑ k : Fin 128, X (ix2 r k) * W (ix2 k q) := by
  have hr := r.isLt
  have ht : r.val / 2000 < 50 := by omega
  have e : Cert.KernelIdeal.Blocks2.rows (F := Ideal) X W (ix2 r q)
      = Cert.KernelIdeal.Gen.k2_pay1 (F := Ideal) (Cert.KernelIdeal.Blocks2.band X (r.val / 2000) ht) W
          (ix2 (⟨r.val % 2000, Nat.mod_lt _ (by decide)⟩ : Fin 2000) q) := rfl
  rw [e, pay2_apply]
  refine Finset.sum_congr rfl fun k _ => ?_
  refine congrArg (fun x => X x * W (ix2 k q)) ?_
  funext a; apply Fin.ext
  match a with
  | ⟨0, _⟩ => exact row_split r
  | ⟨1, _⟩ => rfl

/-! ## The host's two products of the whole arrays -/

section Whole
open Cert.ReferenceIdeal

/-- The left operand's index at output index i and shared coordinate c keeps i's row. -/
theorem whole128_lhs_row (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- … and its column is the shared coordinate. -/
theorem whole128_lhs_col (i : S100000x128.Idx) (c : dot_S100000x128_S128x128_S100000x128_1_0_0_1_n_n.contr.Idx) :
    (dot_S100000x128_S128x128_S100000x128_1_0_0_1_n_n.lhsIdx i c 1).val = (c ⟨0, by decide⟩).val :=
  dot_S100000x128_S128x128_S100000x128_1_0_0_1_n_n.lhsIdx_val_of_single rfl i c
/-- The right operand's index has the shared coordinate as its row … -/
theorem whole128_rhs_row (i : S100000x128.Idx) (c : dot_S100000x128_S128x128_S100000x128_1_0_0_1_n_n.contr.Idx) :
    (dot_S100000x128_S128x128_S100000x128_1_0_0_1_n_n.rhsIdx i c 0).val = (c ⟨0, by decide⟩).val :=
  dot_S100000x128_S128x128_S100000x128_1_0_0_1_n_n.rhsIdx_val_of_single rfl i c
/-- … and keeps i's column. -/
theorem whole128_rhs_col (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- Re-indexing the one shared axis by k : Fin 128, the left operand is read at (p, k). -/
theorem whole128_lhs_at (p : Fin 100000) (q : Fin 128) (k : Fin 128) :
    dot_S100000x128_S128x128_S100000x128_1_0_0_1_n_n.lhsIdx (ix2 p q) ((contrEquiv1 dot_S100000x128_S128x128_S100000x128_1_0_0_1_n_n 128 rfl rfl).symm k) = ix2 p k := by
  have hk := contrEquiv1_symm_val dot_S100000x128_S128x128_S100000x128_1_0_0_1_n_n 128 rfl rfl k
  exact funext fun a => Fin.ext (by
    match a with
    | ⟨0, _⟩ => exact whole128_lhs_row _ _
    | ⟨1, _⟩ => exact (whole128_lhs_col _ _).trans hk)
/-- … and the right operand at (k, q). -/
theorem whole128_rhs_at (p : Fin 100000) (q : Fin 128) (k : Fin 128) :
    dot_S100000x128_S128x128_S100000x128_1_0_0_1_n_n.rhsIdx (ix2 p q) ((contrEquiv1 dot_S100000x128_S128x128_S100000x128_1_0_0_1_n_n 128 rfl rfl).symm k) = ix2 k q := by
  have hk := contrEquiv1_symm_val dot_S100000x128_S128x128_S100000x128_1_0_0_1_n_n 128 rfl rfl k
  exact funext fun a => Fin.ext (by
    match a with
    | ⟨0, _⟩ => exact (whole128_rhs_row _ _).trans hk
    | ⟨1, _⟩ => exact whole128_rhs_col _ _)

/-- The left operand's index at output index i and shared coordinate c keeps i's row. -/
theorem whole64_lhs_row (i : S100000x64.Idx) (c : dot_S100000x128_S128x64_S100000x64_1_0_0_1_n_n.contr.Idx) :
    (dot_S100000x128_S128x64_S100000x64_1_0_0_1_n_n.lhsIdx i c 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
/-- … and its column is the shared coordinate. -/
theorem whole64_lhs_col (i : S100000x64.Idx) (c : dot_S100000x128_S128x64_S100000x64_1_0_0_1_n_n.contr.Idx) :
    (dot_S100000x128_S128x64_S100000x64_1_0_0_1_n_n.lhsIdx i c 1).val = (c ⟨0, by decide⟩).val :=
  dot_S100000x128_S128x64_S100000x64_1_0_0_1_n_n.lhsIdx_val_of_single rfl i c
/-- The right operand's index has the shared coordinate as its row … -/
theorem whole64_rhs_row (i : S100000x64.Idx) (c : dot_S100000x128_S128x64_S100000x64_1_0_0_1_n_n.contr.Idx) :
    (dot_S100000x128_S128x64_S100000x64_1_0_0_1_n_n.rhsIdx i c 0).val = (c ⟨0, by decide⟩).val :=
  dot_S100000x128_S128x64_S100000x64_1_0_0_1_n_n.rhsIdx_val_of_single rfl i c
/-- … and keeps i's column. -/
theorem whole64_rhs_col (i : S100000x64.Idx) (c : dot_S100000x128_S128x64_S100000x64_1_0_0_1_n_n.contr.Idx) :
    (dot_S100000x128_S128x64_S100000x64_1_0_0_1_n_n.rhsIdx i c 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- Re-indexing the one shared axis by k : Fin 128, the left operand is read at (p, k). -/
theorem whole64_lhs_at (p : Fin 100000) (q : Fin 64) (k : Fin 128) :
    dot_S100000x128_S128x64_S100000x64_1_0_0_1_n_n.lhsIdx (ix2 p q) ((contrEquiv1 dot_S100000x128_S128x64_S100000x64_1_0_0_1_n_n 128 rfl rfl).symm k) = ix2 p k := by
  have hk := contrEquiv1_symm_val dot_S100000x128_S128x64_S100000x64_1_0_0_1_n_n 128 rfl rfl k
  exact funext fun a => Fin.ext (by
    match a with
    | ⟨0, _⟩ => exact whole64_lhs_row _ _
    | ⟨1, _⟩ => exact (whole64_lhs_col _ _).trans hk)
/-- … and the right operand at (k, q). -/
theorem whole64_rhs_at (p : Fin 100000) (q : Fin 64) (k : Fin 128) :
    dot_S100000x128_S128x64_S100000x64_1_0_0_1_n_n.rhsIdx (ix2 p q) ((contrEquiv1 dot_S100000x128_S128x64_S100000x64_1_0_0_1_n_n 128 rfl rfl).symm k) = ix2 k q := by
  have hk := contrEquiv1_symm_val dot_S100000x128_S128x64_S100000x64_1_0_0_1_n_n 128 rfl rfl k
  exact funext fun a => Fin.ext (by
    match a with
    | ⟨0, _⟩ => exact (whole64_rhs_row _ _).trans hk
    | ⟨1, _⟩ => exact whole64_rhs_col _ _)

end Whole

/-- The reference's first product on the host, entry (r, q). -/
theorem host_dot128_apply (X : Vec Ideal Cert.ReferenceIdeal.S100000x128 .f32) (W : Vec Ideal Cert.ReferenceIdeal.S128x128 .f32)
    (r : Fin 100000) (q : Fin 128) :
    Host.dotGeneral (F := Ideal) (φ₁ := .f32) (φ₂ := .f32) Cert.ReferenceIdeal.dot_S100000x128_S128x128_S100000x128_1_0_0_1_n_n none X W (ix2 r q)
      = ∑ k : Fin 128, X (ix2 r k) * W (ix2 k q) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  rw [whole128_lhs_at r q k, whole128_rhs_at r q k]

/-- The reference's second product on the host, entry (r, q). -/
theorem host_dot64_apply (X : Vec Ideal Cert.ReferenceIdeal.S100000x128 .f32) (W : Vec Ideal Cert.ReferenceIdeal.S128x64 .f32)
    (r : Fin 100000) (q : Fin 64) :
    Host.dotGeneral (F := Ideal) (φ₁ := .f32) (φ₂ := .f32) Cert.ReferenceIdeal.dot_S100000x128_S128x64_S100000x64_1_0_0_1_n_n none X W (ix2 r q)
      = ∑ k : Fin 128, X (ix2 r k) * W (ix2 k q) := by
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  rw [whole64_lhs_at r q k, whole64_rhs_at r q k]

end Cert.Products

end
-- ==== Proof.BiasRelu.lean ====
/-
  The middle stage at the ideal values: a row of biases added to every row, then the maximum with zero. Region 1 computes it
  band by band; the reference on the host over the whole array. The kernel is handed the bias as a 1 × n array (a reshape of
  the length-n argument), the reference broadcasts the argument to 1 × n and then down the rows; either way the bias an entry
  in column q meets is entry q of the argument. Entry by entry both sides are max (a + bias) 0.
-/
import proofs.«113558_j89859305766966_1_alg».proof.Proof.Blocks1
import proofs.«113558_j89859305766966_1_alg».proof.Proof.Gen.ReferenceIdeal
import Idealize.ShloMosaic.PureOps.Ideal.Laws
import Idealize.ShloMosaic.PureOps.Reduce
import Idealize.ShloMosaic.Lib.Pipeline.Value
import Idealize.ShloMosaic.Lib.ValueIdx
import Idealize.ShloMosaic.Lib.ValueLayout

noncomputable section

namespace Cert.BiasRelu

open Idealize.ShloMosaic Idealize.ShloMosaic.ValueIdx

/-! ## The bias row, as each program spells it -/

/-- A length-n array reshaped to 1 × n, read at (0, q). -/
theorem reshaped_row {α : Type} {n : ℕ} (x : (⟨1, ![n]⟩ : Shape).Idx → α) (h : (⟨1, ![n]⟩ : Shape).ShapeCasts ⟨2, ![1, n]⟩)
    (q : Fin n) : shapeCast ⟨2, ![1, n]⟩ x h (ix2 (0 : Fin 1) q) = x (ix1 q) :=
  shapeCast_a_1a_apply x h 0 q

/-- A length-n array broadcast to 1 × n along its own axis, then down m rows, read at (r, q). -/
theorem broadcast_rows {α : Type} {m n : ℕ} (hn : n ≠ 1) (x : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2)) (r : Fin m) (q : Fin n) :
    broadcastInDim ⟨2, ![m, n]⟩ ![0, 1] h2 (broadcastInDim ⟨2, ![1, n]⟩ ![1] h1 x) (ix2 r q) = x (ix1 q) := by
  rw [broadcastInDim_apply ![0, 1] h2 _ (ix2 r q) (ix2 (0 : Fin 1) q) (fun a => by
    match a with
    | ⟨0, _⟩ => rfl
    | ⟨1, _⟩ => show q.val = if n = 1 then 0 else q.val; rw [if_neg hn])]
  exact broadcastInDim_apply ![1] h1 x (ix2 (0 : Fin 1) q) (ix1 q) (fun a => by
    match a with
    | ⟨0, _⟩ => show q.val = if n = 1 then 0 else q.val; rw [if_neg hn])

/-! ## Region 1 -/

open Cert.KernelIdeal Cert.KernelIdeal.Gen in
/-- The body at entry (p, q) of a band: the band's entry plus the bias of column q, or zero if that is negative. -/
theorem body_at (xb : Vec Ideal S2000x128 .f32) (b : Vec Ideal S1x128 .f32) (p : Fin 2000) (q : Fin 128) :
    k1_pay1 (F := Ideal) xb b (ix2 p q) = max (xb (ix2 p q) + b (ix2 (0 : Fin 1) q)) (Ideal.ofBits .f32 0x00000000#32) := by
  unfold k1_pay1
  have h1 : shapeCast S2000x128 xb shapeCasts_S2000x128_S2000x128 = xb := shapeCast_self _ _
  have h2 : shapeCast S1x128 b shapeCasts_S1x128_S1x128 = b := shapeCast_self _ _
  show max (shapeCast S2000x128 xb shapeCasts_S2000x128_S2000x128 (ix2 p q)
      + broadcastTo S2000x128 (shapeCast S1x128 b shapeCasts_S1x128_S1x128) broadcasts_S1x128_S2000x128 (ix2 p q)) _ = _
  rw [h1, h2, broadcastTo_1b_ab_apply]
  rfl

open Cert.KernelIdeal in
/-- Region 1's output array, entry (r, q). -/
theorem rows1_apply (X : Vec Ideal S100000x128 .f32) (B : Vec Ideal S1x128 .f32) (r : Fin 100000) (q : Fin 128) :
    Blocks1.rows (F := Ideal) X B (ix2 r q) = max (X (ix2 r q) + B (ix2 (0 : Fin 1) q)) (Ideal.ofBits .f32 0x00000000#32) := by
  have hr : r.val / 2000 < 50 := by have := r.isLt; omega
  show Gen.k1_pay1 (F := Ideal) (Blocks1.band X (r.val / 2000) hr) B (ix2 (⟨r.val % 2000, Nat.mod_lt _ (by decide)⟩ : Fin 2000) (⟨q.val, q.isLt⟩ : Fin 128)) = _
  rw [body_at]
  have hrow : (⟨r.val / 2000 * 2000 + r.val % 2000, by have := r.isLt; omega⟩ : Fin 100000) = r := Fin.ext (by show r.val / 2000 * 2000 + r.val % 2000 = r.val; omega)
  show max (X (ix2 (⟨r.val / 2000 * 2000 + r.val % 2000, _⟩ : Fin 100000) (⟨q.val, _⟩ : Fin 128)) + B (ix2 (0 : Fin 1) (⟨q.val, _⟩ : Fin 128))) _ = _
  rw [hrow]

/-! ## The reference's spelling -/

open Cert.ReferenceIdeal Cert.ReferenceIdeal.Gen in
/-- The host's bias-and-maximum over the whole array, entry (r, q). -/
theorem host_apply (a : Vec Ideal S100000x128 .f32) (x3 : Vec Ideal S128 .f32) (r : Fin 100000) (q : Fin 128) :
    maximumf (addf a (broadcastInDim S100000x128 ![0, 1] bcast_S1x128_S100000x128_0_1 (broadcastInDim S1x128 ![1] bcast_S128_S1x128_1 x3)))
        (broadcastInDim S100000x128 ![] bcast_S_S100000x128 (constant (F := Ideal) S_ .f32 0x00000000#32)) (ix2 r q)
      = max (a (ix2 r q) + x3 (ix1 q)) (Ideal.ofBits .f32 0x00000000#32) := by
  show max (a (ix2 r q) + broadcastInDim S100000x128 ![0, 1] bcast_S1x128_S100000x128_0_1 (broadcastInDim S1x128 ![1] bcast_S128_S1x128_1 x3) (ix2 r q))
      (broadcastInDim S100000x128 ![] bcast_S_S100000x128 (constant (F := Ideal) S_ .f32 0x00000000#32) (ix2 r q)) = _
  rw [broadcast_rows (by decide) x3 bcast_S128_S1x128_1 bcast_S1x128_S100000x128_0_1 r q]
  rfl

open Cert.ReferenceIdeal Cert.ReferenceIdeal.Gen in
/-- The host's second bias added over the whole 100000 × 64 array, entry (r, q). -/
theorem host_addBias64_apply (a : Vec Ideal S100000x64 .f32) (x5 : Vec Ideal S64 .f32) (r : Fin 100000) (q : Fin 64) :
    addf (F := Ideal) (φ := .f32) a (broadcastInDim S100000x64 ![0, 1] bcast_S1x64_S100000x64_0_1 (broadcastInDim S1x64 ![1] bcast_S64_S1x64_1 x5)) (ix2 r q)
      = a (ix2 r q) + x5 (ix1 q) := by
  show a (ix2 r q) + broadcastInDim S100000x64 ![0, 1] bcast_S1x64_S100000x64_0_1 (broadcastInDim S1x64 ![1] bcast_S64_S1x64_1 x5) (ix2 r q) = _
  rw [broadcast_rows (by decide) x5 bcast_S64_S1x64_1 bcast_S1x64_S100000x64_0_1 r q]

end Cert.BiasRelu

end
-- ==== Proof.Spec.lean ====
/-
  The log-softmax of one row of 64 extended reals: each entry less the row's largest entry, less the logarithm of the sum of
  the exponentials of those differences. The largest entry is the fold of `max` from −∞, written as the f32 word of −∞ (the
  word both programs start their row maximum from), so that no float literal is evaluated.
-/
import Idealize.ShloMosaic.PureOps.Ideal.Laws

noncomputable section

namespace Cert.Spec

open Idealize.ShloMosaic

/-- The largest entry of a row of 64, from −∞. -/
def rowMax (y : Fin 64 → EReal) : EReal :=
  (Finset.univ : Finset (Fin 64)).fold max (Ideal.ofBits .f32 0xFF800000#32) y

/-- The log-softmax of a row of 64, at its entry `q`. -/
def logSoftmaxRow (y : Fin 64 → EReal) (q : Fin 64) : EReal :=
  (y q - rowMax y) - Ideal.log (∑ j : Fin 64, Ideal.exp (y j - rowMax y))

end Cert.Spec

end
-- ==== Proof.LogSoftmax.lean ====
/-
  The last stage at the ideal values: a row of biases added to each row, then the row's log-softmax. Region 3 computes it band
  by band on the vector unit (a lane maximum, a lane sum); the reference computes it on the host over the whole array (a
  reduce with maximum, one more maximum against −∞, a reduce with add). Entry by entry both are `Cert.Spec.logSoftmaxRow` of
  the row.
-/
import proofs.«113558_j89859305766966_1_alg».proof.Proof.Blocks3
import proofs.«113558_j89859305766966_1_alg».proof.Proof.Spec
import proofs.«113558_j89859305766966_1_alg».proof.Proof.Gen.ReferenceIdeal
import Idealize.ShloMosaic.PureOps.Ideal.Laws
import Idealize.ShloMosaic.PureOps.Reduce
import Idealize.ShloMosaic.Lib.Pipeline.Value
import Idealize.ShloMosaic.Lib.ValueIdx
import Idealize.ShloMosaic.Lib.ValueLayout

noncomputable section

namespace Cert.LogSoftmax

open Idealize.ShloMosaic Idealize.ShloMosaic.ValueIdx Cert.Spec

/-! ## Columns: an array of `a` entries as `a` rows of one, and one column spread over `b` -/

section Columns
variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- The host's `[a]` to `[a, 1]`, the one axis kept as axis 0: at `(p, u)` the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's `[a, 1]` to `[a, b]`, axes kept in place: at `(p, c)` the operand's row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Columns

/-! ## A row's maximum and sum, as the vector unit and the host take them -/

/-- The reduced index `p` with the lane `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- From −∞'s word a fold of `max` is at least −∞'s word, so one more maximum against it changes nothing. -/
theorem max_rowMax (y : Fin 64 → EReal) : max (Ideal.ofBits .f32 0xFF800000#32) (rowMax y) = rowMax y :=
  max_eq_right ((Finset.le_fold_max _).2 (Or.inl le_rfl))

/-- The vector unit's lane maximum of `a` rows of 64, at row `p`: the row's largest entry. -/
theorem laneMax_apply {a : ℕ} (v : FVec Ideal ⟨2, ![a, 64]⟩ .f32) (h : (⟨2, ![a, 64]⟩ : Shape).Reduces [1] (⟨1, ![a]⟩ : Shape))
    (hφ : FKind.Formats .f32) (hacc : (0xFF800000#32 : BitVec 32) = FKind.maximumf.neutral .f32 hφ) (p : Fin a) :
    multiReduction (F := Ideal) .maximumf [1] ⟨1, ![a]⟩ v 0xFF800000#32 h hφ hacc (ix1 p) = rowMax fun j => v (ix2 p j) := by
  refine (Ideal.multiReduction_maximumf_single v _ h hφ hacc (ix1 p)).trans ?_
  have hf : (v ∘ h.lift (ix1 p)) = fun k : Fin 64 => v (ix2 p k) := funext fun k => congrArg v (lift_row h p k)
  exact congrArg (fun f => Finset.fold max (Ideal.ofBits .f32 0xFF800000#32) f (Finset.univ : Finset (Fin 64))) hf

/-- The vector unit's lane sum of `a` rows of 64, at row `p`: the row's sum. -/
theorem laneSum_apply {a : ℕ} (v : FVec Ideal ⟨2, ![a, 64]⟩ .f32) (h : (⟨2, ![a, 64]⟩ : Shape).Reduces [1] (⟨1, ![a]⟩ : Shape))
    (hφ : FKind.Formats .f32) (hacc : (0x00000000#32 : BitVec 32) = FKind.add.neutral .f32 hφ) (p : Fin a) :
    multiReduction (F := Ideal) .add [1] ⟨1, ![a]⟩ v 0x00000000#32 h hφ hacc (ix1 p) = ∑ j : Fin 64, v (ix2 p j) := by
  refine (Ideal.multiReduction_add_single v _ h hφ hacc (ix1 p)).trans ?_
  exact Finset.sum_congr rfl fun k _ => congrArg v (lift_row h p k)

/-- An exponential of an array, at an index, is the exponential of the entry. -/
theorem exp_apply {s : Shape} {φ : FTy} (x : FVec Ideal s φ) (i : s.Idx) : exp x i = Ideal.exp (x i) := rfl
/-- A logarithm of an array, at an index, is the logarithm of the entry. -/
theorem log_apply {s : Shape} {φ : FTy} (x : FVec Ideal s φ) (i : s.Idx) : log x i = Ideal.log (x i) := rfl

/-! ## The body's value on a band -/

/-- What the body does once the bias is added, on `a` rows of 64: each entry less its row's lane maximum, less the
    logarithm of the lane sum of the exponentials of those differences. Entry (p, q) is the log-softmax of row p. -/
theorem lanes_apply {a : ℕ} (v : FVec Ideal ⟨2, ![a, 64]⟩ .f32)
    (hr : (⟨2, ![a, 64]⟩ : Shape).Reduces [1] (⟨1, ![a]⟩ : Shape))
    (hc : (⟨1, ![a]⟩ : Shape).ShapeCasts ⟨2, ![a, 1]⟩) (hb : (⟨2, ![a, 1]⟩ : Shape).Broadcasts ⟨2, ![a, 64]⟩)
    (hφ : FKind.Formats .f32) (hmax : (0xFF800000#32 : BitVec 32) = FKind.maximumf.neutral .f32 hφ)
    (hadd : (0x00000000#32 : BitVec 32) = FKind.add.neutral .f32 hφ) (p : Fin a) (q : Fin 64) :
    subf
      (subf v (broadcastTo ⟨2, ![a, 64]⟩ (shapeCast ⟨2, ![a, 1]⟩
        (multiReduction (F := Ideal) .maximumf [1] ⟨1, ![a]⟩ v 0xFF800000#32 hr hφ hmax) hc) hb))
      (broadcastTo ⟨2, ![a, 64]⟩
        (log (shapeCast ⟨2, ![a, 1]⟩
          (multiReduction (F := Ideal) .add [1] ⟨1, ![a]⟩
            (exp (subf v (broadcastTo ⟨2, ![a, 64]⟩ (shapeCast ⟨2, ![a, 1]⟩
              (multiReduction (F := Ideal) .maximumf [1] ⟨1, ![a]⟩ v 0xFF800000#32 hr hφ hmax) hc) hb)))
            0x00000000#32 hr hφ hadd) hc)) hb)
      (ix2 p q)
    = logSoftmaxRow (fun j => v (ix2 p j)) q := by
  have h9 : ∀ j : Fin 64, subf v (broadcastTo ⟨2, ![a, 64]⟩ (shapeCast ⟨2, ![a, 1]⟩
        (multiReduction (F := Ideal) .maximumf [1] ⟨1, ![a]⟩ v 0xFF800000#32 hr hφ hmax) hc) hb) (ix2 p j)
      = v (ix2 p j) - rowMax (fun j => v (ix2 p j)) := fun j => by
    rw [subf_apply, broadcastTo_a1_ab_apply, shapeCast_a_a1_apply, laneMax_apply]
  rw [subf_apply, h9, broadcastTo_a1_ab_apply, log_apply, shapeCast_a_a1_apply, laneSum_apply]
  simp only [exp_apply, h9]
  rfl

/-- The band with the row of biases added (the body casts each to its own shape first), entry (p, j). -/
theorem addBias_apply {a c : ℕ} (xb : FVec Ideal ⟨2, ![a, c]⟩ .f32) (b : FVec Ideal ⟨2, ![1, c]⟩ .f32)
    (h0 : (⟨2, ![a, c]⟩ : Shape).ShapeCasts ⟨2, ![a, c]⟩) (h1 : (⟨2, ![1, c]⟩ : Shape).ShapeCasts ⟨2, ![1, c]⟩)
    (hb : (⟨2, ![1, c]⟩ : Shape).Broadcasts ⟨2, ![a, c]⟩) (p : Fin a) (j : Fin c) :
    addf (shapeCast ⟨2, ![a, c]⟩ xb h0) (broadcastTo ⟨2, ![a, c]⟩ (shapeCast ⟨2, ![1, c]⟩ b h1) hb) (ix2 p j)
      = xb (ix2 p j) + b (ix2 (0 : Fin 1) j) := by
  rw [addf_apply, shapeCast_self, shapeCast_self, broadcastTo_1b_ab_apply]

open Cert.KernelIdeal Cert.KernelIdeal.Gen in
/-- The body's value on a band `xb` and the row of biases `b`, entry (p, q): the log-softmax of row p of the band plus the
    row of biases. -/
theorem pay_apply (xb : Vec Ideal Cert.KernelIdeal.S2000x64 .f32) (b : Vec Ideal Cert.KernelIdeal.S1x64 .f32) (p : Fin 2000) (q : Fin 64) :
    k3_pay1 (F := Ideal) xb b (ix2 p q) = logSoftmaxRow (fun j : Fin 64 => xb (ix2 p j) + b (ix2 (0 : Fin 1) j)) q := by
  unfold k3_pay1
  refine (lanes_apply _ reduces_S2000x64_S2000 shapeCasts_S2000_S2000x1 broadcasts_S2000x1_S2000x64 (.inl rfl) rfl rfl p q).trans ?_
  exact congrArg (fun y => logSoftmaxRow y q) (funext fun j =>
    addBias_apply (a := 2000) (c := 64) xb b shapeCasts_S2000x64_S2000x64 shapeCasts_S1x64_S1x64 broadcasts_S1x64_S2000x64 p j)

/-- Region 3's output array, entry (r, q): the log-softmax of row r of the first operand plus the row of biases. -/
theorem rows3_apply (X : Vec Ideal Cert.KernelIdeal.S100000x64 .f32) (B : Vec Ideal Cert.KernelIdeal.S1x64 .f32)
    (r : Fin 100000) (q : Fin 64) :
    Cert.KernelIdeal.Blocks3.rows (F := Ideal) X B (ix2 r q)
      = logSoftmaxRow (fun j : Fin 64 => X (ix2 r j) + B (ix2 (0 : Fin 1) j)) q := by
  have hr : r.val < 100000 := r.isLt
  have ht : r.val / 2000 < 50 := by omega
  have hp : r.val % 2000 < 2000 := Nat.mod_lt _ (by decide)
  -- the entry is the body's value on the band that holds row r, at row r mod 2000
  have e : Cert.KernelIdeal.Blocks3.rows (F := Ideal) X B (ix2 r q)
      = Cert.KernelIdeal.Gen.k3_pay1 (F := Ideal) (Cert.KernelIdeal.Blocks3.band X (r.val / 2000) ht) B (ix2 (⟨r.val % 2000, hp⟩ : Fin 2000) q) := rfl
  rw [e, pay_apply]
  -- and row r mod 2000 of that band is row r of the array
  refine congrArg (fun y => logSoftmaxRow y q) (funext fun j => congrArg (· + B (ix2 (0 : Fin 1) j)) ?_)
  show X (ix2 (⟨r.val / 2000 * 2000 + r.val % 2000, _⟩ : Fin 100000) (⟨j.val, _⟩ : Fin 64)) = X (ix2 r j)
  refine congrArg X (funext fun c => Fin.ext ?_)
  match c with
  | ⟨0, _⟩ => show r.val / 2000 * 2000 + r.val % 2000 = r.val; omega
  | ⟨1, _⟩ => rfl

open Cert.ReferenceIdeal Cert.ReferenceIdeal.Gen in
/-- The reference's `log_softmax` on the host: its operations, in the program's order and spelling, composed. -/
def hostLogSoftmax {F : FTy → Type} [FloatOps F] (z : Vec F Cert.ReferenceIdeal.S100000x64 .f32) : Vec F Cert.ReferenceIdeal.S100000x64 .f32 :=
  let m0 : Vec F S100000 .f32 := Host.reduce FloatOps.maximumf z (constant S_ .f32 0xFF800000#32) reducesTo_S100000x64_S100000_d1 h_S_
  let m2 : Vec F S100000 .f32 := maximumf (broadcastInDim S100000 ![] bcast_S_S100000 (constant S_ .f32 0xFF800000#32)) m0
  let d : Vec F S100000x64 .f32 := subf z (broadcastInDim S100000x64 ![0, 1] bcast_S100000x1_S100000x64_0_1 (broadcastInDim S100000x1 ![0] bcast_S100000_S100000x1_0 m2))
  let s : Vec F S100000 .f32 := Host.reduceAdd (Host.exp d) (constant S_ .f32 0x00000000#32) reducesTo_S100000x64_S100000_d1 h_S_
  subf d (broadcastInDim S100000x64 ![0, 1] bcast_S100000x1_S100000x64_0_1 (Host.log (broadcastInDim S100000x1 ![0] bcast_S100000_S100000x1_0 s)))

/-! ## The host's chain -/

/-- The host's reduce with a maximum body from −∞'s word, of `a` rows of 64, at row `p`: the row's largest entry. -/
theorem hostMax_apply {a : ℕ} (z : FVec Ideal ⟨2, ![a, 64]⟩ .f32) (h' : (⟨2, ![a, 64]⟩ : Shape).ReducesTo [1] (⟨1, ![a]⟩ : Shape))
    (h : (⟨2, ![a, 64]⟩ : Shape).Reduces [1] (⟨1, ![a]⟩ : Shape)) (hu : 0 < (⟨0, ![]⟩ : Shape).numel) (p : Fin a) :
    Host.reduce FloatOps.maximumf z (constant (F := Ideal) (⟨0, ![]⟩ : Shape) .f32 0xFF800000#32) h' hu (ix1 p)
      = rowMax fun j => z (ix2 p j) := by
  rw [Host.reduce_eq_fold_single FloatOps.maximumf z _ h' h hu]
  have hf : (z ∘ h.lift (ix1 p)) = fun k : Fin 64 => z (ix2 p k) := funext fun k => congrArg z (lift_row h p k)
  exact congrArg (fun f => Finset.fold max (Ideal.ofBits .f32 0xFF800000#32) f (Finset.univ : Finset (Fin 64))) hf

/-- The host's reduce with an add body from the zero word, of `a` rows of 64, at row `p`: the row's sum. -/
theorem hostSum_apply {a : ℕ} (y : FVec Ideal ⟨2, ![a, 64]⟩ .f32) (h' : (⟨2, ![a, 64]⟩ : Shape).ReducesTo [1] (⟨1, ![a]⟩ : Shape))
    (h : (⟨2, ![a, 64]⟩ : Shape).Reduces [1] (⟨1, ![a]⟩ : Shape)) (hu : 0 < (⟨0, ![]⟩ : Shape).numel) (p : Fin a) :
    Host.reduceAdd (F := Ideal) y (constant (F := Ideal) (⟨0, ![]⟩ : Shape) .f32 0x00000000#32) h' hu (ix1 p)
      = ∑ j : Fin 64, y (ix2 p j) := by
  simp only [Host.reduceAdd, Ideal.hostReduceAdd_def]
  rw [Ideal.hostReduceAdd_single h' h]
  show Ideal.ofBits .f32 0x00000000#32 + _ = _
  rw [Ideal.ofBits_zero_f32, zero_add]
  exact Finset.sum_congr rfl fun k _ => congrArg y (lift_row h p k)

/-- The host's exponential of an array, at an index, is the exponential of the entry. -/
theorem hostExp_apply {s : Shape} {φ : FTy} (x : FVec Ideal s φ) (i : s.Idx) : Host.exp x i = Ideal.exp (x i) := rfl
/-- The host's logarithm of an array, at an index, is the logarithm of the entry. -/
theorem hostLog_apply {s : Shape} {φ : FTy} (x : FVec Ideal s φ) (i : s.Idx) : Host.log x i = Ideal.log (x i) := rfl

/-- The reference's operations on `a` rows of 64: the rows' maxima by a reduce, one more maximum against −∞, each entry
    less its row's maximum, less the logarithm of the row's sum of the exponentials of those differences. Entry (p, q) is
    the log-softmax of row p. -/
theorem hostLanes_apply {a : ℕ} (z : FVec Ideal ⟨2, ![a, 64]⟩ .f32) (h' : (⟨2, ![a, 64]⟩ : Shape).ReducesTo [1] (⟨1, ![a]⟩ : Shape))
    (h : (⟨2, ![a, 64]⟩ : Shape).Reduces [1] (⟨1, ![a]⟩ : Shape)) (hu : 0 < (⟨0, ![]⟩ : Shape).numel)
    (h0 : (⟨0, ![]⟩ : Shape).BroadcastsInDim ⟨1, ![a]⟩ ![]) (h1 : (⟨1, ![a]⟩ : Shape).BroadcastsInDim ⟨2, ![a, 1]⟩ ![0])
    (h2 : (⟨2, ![a, 1]⟩ : Shape).BroadcastsInDim ⟨2, ![a, 64]⟩ ![0, 1]) (p : Fin a) (q : Fin 64) :
    subf
      (subf z (broadcastInDim ⟨2, ![a, 64]⟩ ![0, 1] h2 (broadcastInDim ⟨2, ![a, 1]⟩ ![0] h1
        (maximumf (broadcastInDim ⟨1, ![a]⟩ ![] h0 (constant (F := Ideal) (⟨0, ![]⟩ : Shape) .f32 0xFF800000#32))
          (Host.reduce FloatOps.maximumf z (constant (F := Ideal) (⟨0, ![]⟩ : Shape) .f32 0xFF800000#32) h' hu)))))
      (broadcastInDim ⟨2, ![a, 64]⟩ ![0, 1] h2 (Host.log (broadcastInDim ⟨2, ![a, 1]⟩ ![0] h1
        (Host.reduceAdd (F := Ideal)
          (Host.exp (subf z (broadcastInDim ⟨2, ![a, 64]⟩ ![0, 1] h2 (broadcastInDim ⟨2, ![a, 1]⟩ ![0] h1
            (maximumf (broadcastInDim ⟨1, ![a]⟩ ![] h0 (constant (F := Ideal) (⟨0, ![]⟩ : Shape) .f32 0xFF800000#32))
              (Host.reduce FloatOps.maximumf z (constant (F := Ideal) (⟨0, ![]⟩ : Shape) .f32 0xFF800000#32) h' hu))))))
          (constant (F := Ideal) (⟨0, ![]⟩ : Shape) .f32 0x00000000#32) h' hu))))
      (ix2 p q)
    = logSoftmaxRow (fun j => z (ix2 p j)) q := by
  have hd : ∀ j : Fin 64, subf z (broadcastInDim ⟨2, ![a, 64]⟩ ![0, 1] h2 (broadcastInDim ⟨2, ![a, 1]⟩ ![0] h1
        (maximumf (broadcastInDim ⟨1, ![a]⟩ ![] h0 (constant (F := Ideal) (⟨0, ![]⟩ : Shape) .f32 0xFF800000#32))
          (Host.reduce FloatOps.maximumf z (constant (F := Ideal) (⟨0, ![]⟩ : Shape) .f32 0xFF800000#32) h' hu)))) (ix2 p j)
      = z (ix2 p j) - rowMax (fun j => z (ix2 p j)) := fun j => by
    rw [subf_apply, broadcastInDim_a1_ab_apply, broadcastInDim_a_a1_apply, maximumf_apply, hostMax_apply z h' h hu p]
    exact congrArg (z (ix2 p j) - ·) (max_rowMax _)
  rw [subf_apply, hd, broadcastInDim_a1_ab_apply, hostLog_apply, broadcastInDim_a_a1_apply, hostSum_apply _ h' h hu p]
  simp only [hostExp_apply, hd]
  rfl

/-- The host's log-softmax, entry (r, q): the log-softmax of row r. -/
theorem hostLogSoftmax_apply (z : Vec Ideal Cert.ReferenceIdeal.S100000x64 .f32) (r : Fin 100000) (q : Fin 64) :
    hostLogSoftmax (F := Ideal) z (ix2 r q) = logSoftmaxRow (fun j : Fin 64 => z (ix2 r j)) q := by
  unfold hostLogSoftmax
  exact hostLanes_apply (a := 100000) z Cert.ReferenceIdeal.Gen.reducesTo_S100000x64_S100000_d1 (by decide) Cert.ReferenceIdeal.Gen.h_S_
    Cert.ReferenceIdeal.Gen.bcast_S_S100000 Cert.ReferenceIdeal.Gen.bcast_S100000_S100000x1_0
    Cert.ReferenceIdeal.Gen.bcast_S100000x1_S100000x64_0_1 r q

end Cert.LogSoftmax

end
-- ==== Proof.KernelHost.lean ====
/-
  The host operations around the kernel's four regions, read from the contents they are entered with, at any float instance.
  Before region 0 the program computes, from the edge list alone, the sources and targets with one self-loop per node
  appended and the edge weights (the product of the inverse square roots of the two end nodes' degrees). Between regions it
  gathers the rows of the last product at the sources, scales each by its edge's weight and adds it into its target's row.
  These are the reference's own operations in the reference's order, so each buffer the next region reads is the
  reference's stage of the same name, given that the product it gathers from is.
-/
import proofs.«113558_j89859305766966_1_alg».proof.Proof.Gen.KernelIdeal.Launch
import proofs.«113558_j89859305766966_1_alg».proof.Proof.RefRead
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]

/-- The contents after the three stretches before region 0, from launch contents `W`. -/
abbrev before0 (W : Valuation τ sig (Elt F)) : Valuation τ sig (Elt F) :=
  StableHlo.after hostOps0_2 (StableHlo.after hostOps0_1 (StableHlo.after hostOps0 W))

/-! ## One stretch at a time

Each of the three stretches before region 0 is read from an arbitrary valuation `V`: what it computes, given what the
buffers it reads hold, and that it leaves the sources and targets alone. -/

/-- Reads each remaining operation's result at its own buffer and passes over the others, until none is left
    (what one simplification pass leaves unopened under the operands of a concatenation). -/
local macro "results_rest" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- First stretch: the sources. -/
theorem first_sources (W : Valuation τ sig (Elt F)) :
    StableHlo.after hostOps0 W (Proc.devRef .tc main_v5) = val_main_v6 (F := F) (W (Proc.devRef .tc main_arg1)) := by
  after_results
  unfold val_main_v6 val_main_v1 val_main_v0 val_main_v5
  rfl

/-- First stretch: the targets. -/
theorem first_targets (W : Valuation τ sig (Elt F)) :
    StableHlo.after hostOps0 W (Proc.devRef .tc main_v6) = val_main_v7 (F := F) (W (Proc.devRef .tc main_arg1)) := by
  after_results
  unfold val_main_v7 val_main_v3 val_main_v2 val_main_v5
  rfl

/-- First stretch: which nodes have positive degree. -/
theorem first_positive (W : Valuation τ sig (Elt F)) :
    StableHlo.after hostOps0 W (Proc.devRef .tc main_v12) = val_main_v13 (F := F) (W (Proc.devRef .tc main_arg1)) := by
  after_results_simp
  results_rest
  unfold val_main_v13 val_main_v12 val_main_cst_1 val_main_v11 val_main_v9 val_main_cst_0 val_main_v10 val_main_v8 val_main_cst
    val_main_v7 val_main_v3 val_main_v2 val_main_v5
  rfl

/-- First stretch: the inverse square roots of the degrees. -/
theorem first_rsqrt (W : Valuation τ sig (Elt F)) :
    StableHlo.after hostOps0 W (Proc.devRef .tc main_v13) = val_main_v14 (F := F) (W (Proc.devRef .tc main_arg1)) := by
  after_results_simp
  results_rest
  unfold val_main_v14 val_main_v11 val_main_v9 val_main_cst_0 val_main_v10 val_main_v8 val_main_cst
    val_main_v7 val_main_v3 val_main_v2 val_main_v5
  rfl

/-- First stretch: the zero the isolated nodes get. -/
theorem first_zero (W : Valuation τ sig (Elt F)) :
    StableHlo.after hostOps0 W (Proc.devRef .tc main_cst_2) = val_main_cst_2 (F := F) := by
  after_results_simp
  rfl

/-- Second stretch: the inverse square root where the degree is positive, zero elsewhere. -/
theorem second_scale (V : Valuation τ sig (Elt F)) (x1 : (⟨Cert.ReferenceIdeal.S2x1600000, .i32⟩ : BufTy).Contents (Elt F))
    (h12 : V (Proc.devRef .tc main_v12) = val_main_v13 (F := F) x1) (h13 : V (Proc.devRef .tc main_v13) = val_main_v14 (F := F) x1)
    (hz : V (Proc.devRef .tc main_cst_2) = val_main_cst_2 (F := F)) :
    StableHlo.after hostOps0_1 V (Proc.devRef .tc main_v14) = val_main_v15 (F := F) x1 := by
  after_results_simp
  rw [h12, h13, hz]
  unfold val_main_v15 val_main_call0_v1 val_main_call0_v0
  rfl

/-- The second stretch leaves the sources alone. -/
theorem second_keeps_sources (V : Valuation τ sig (Elt F)) :
    StableHlo.after hostOps0_1 V (Proc.devRef .tc main_v5) = V (Proc.devRef .tc main_v5) := by
  after_results_simp

/-- The second stretch leaves the targets alone. -/
theorem second_keeps_targets (V : Valuation τ sig (Elt F)) :
    StableHlo.after hostOps0_1 V (Proc.devRef .tc main_v6) = V (Proc.devRef .tc main_v6) := by
  after_results_simp

/-- Third stretch: the edge weights, from the sources, the targets and the nodes' scales. -/
theorem third_weights (V : Valuation τ sig (Elt F)) (x1 : (⟨Cert.ReferenceIdeal.S2x1600000, .i32⟩ : BufTy).Contents (Elt F))
    (h5 : V (Proc.devRef .tc main_v5) = val_main_v6 (F := F) x1) (h6 : V (Proc.devRef .tc main_v6) = val_main_v7 (F := F) x1)
    (h14 : V (Proc.devRef .tc main_v14) = val_main_v15 (F := F) x1) :
    StableHlo.after hostOps0_2 V (Proc.devRef .tc main_v29) = val_main_v30 (F := F) x1 := by
  after_results_simp
  rw [h5, h6, h14]
  unfold val_main_v30 val_main_v22 val_main_v21 val_main_v20 val_main_v17 val_main_v16 val_main_c val_main_v19 val_main_v18 val_main_c_3
    val_main_v29 val_main_v28 val_main_v27 val_main_v24 val_main_v23 val_main_c_4 val_main_v26 val_main_v25 val_main_c_5
  rfl

/-- The third stretch leaves the sources alone. -/
theorem third_keeps_sources (V : Valuation τ sig (Elt F)) :
    StableHlo.after hostOps0_2 V (Proc.devRef .tc main_v5) = V (Proc.devRef .tc main_v5) := by
  after_results_simp

/-- The third stretch leaves the targets alone. -/
theorem third_keeps_targets (V : Valuation τ sig (Elt F)) :
    StableHlo.after hostOps0_2 V (Proc.devRef .tc main_v6) = V (Proc.devRef .tc main_v6) := by
  after_results_simp

/-- The reference recomputes the edge data for its second layer; the second copies are the first. -/
theorem sources_again (x1 : (⟨Cert.ReferenceIdeal.S2x1600000, .i32⟩ : BufTy).Contents (Elt F)) :
    val_main_v50 (F := F) x1 = val_main_v6 (F := F) x1 := rfl
theorem targets_again (x1 : (⟨Cert.ReferenceIdeal.S2x1600000, .i32⟩ : BufTy).Contents (Elt F)) :
    val_main_v51 (F := F) x1 = val_main_v7 (F := F) x1 := rfl
theorem weights_again (x1 : (⟨Cert.ReferenceIdeal.S2x1600000, .i32⟩ : BufTy).Contents (Elt F)) :
    val_main_v74 (F := F) x1 = val_main_v30 (F := F) x1 := rfl

/-! ## The seven readings -/

/-- The sources with the self-loops appended. -/
theorem sources (W : Valuation τ sig (Elt F)) :
    before0 W (Proc.devRef .tc main_v5) = val_main_v6 (F := F) (W (Proc.devRef .tc main_arg1)) := by
  exact (third_keeps_sources _).trans ((second_keeps_sources _).trans (first_sources W))

/-- The targets with the self-loops appended. -/
theorem targets (W : Valuation τ sig (Elt F)) :
    before0 W (Proc.devRef .tc main_v6) = val_main_v7 (F := F) (W (Proc.devRef .tc main_arg1)) := by
  exact (third_keeps_targets _).trans ((second_keeps_targets _).trans (first_targets W))

/-- The edge weights. -/
theorem weights (W : Valuation τ sig (Elt F)) :
    before0 W (Proc.devRef .tc main_v29) = val_main_v30 (F := F) (W (Proc.devRef .tc main_arg1)) := by
  exact third_weights _ _ ((second_keeps_sources _).trans (first_sources W)) ((second_keeps_targets _).trans (first_targets W))
    (second_scale _ _ (first_positive W) (first_rsqrt W) (first_zero W))

/-- Between regions 0 and 1: the first layer's weighted sum over incoming edges, from the product `Y` region 0 left. -/
theorem aggregate128 (W : Valuation τ sig (Elt F)) (x1 : (⟨Cert.ReferenceIdeal.S2x1600000, .i32⟩ : BufTy).Contents (Elt F))
    (Y : (⟨Cert.ReferenceIdeal.S100000x128, .f32⟩ : BufTy).Contents (Elt F))
    (h5 : W (Proc.devRef .tc main_v5) = val_main_v6 (F := F) x1) (h6 : W (Proc.devRef .tc main_v6) = val_main_v7 (F := F) x1)
    (h29 : W (Proc.devRef .tc main_v29) = val_main_v30 (F := F) x1) (h30 : W (Proc.devRef .tc main_v30) = Y) :
    StableHlo.after hostOps1 W (Proc.devRef .tc main_v43)
      = Host.scatterAdd Cert.ReferenceIdeal.scatter_S100000x128_S1700000x1_S1700000x128_1_0_0_1 (val_main_v41 (F := F)) (val_main_v42 (F := F) x1)
          (mulf (Host.gather Cert.ReferenceIdeal.gather_S100000x128_S1700000x1_S1700000x128_1_0_n_n_0_1_1128 Y (val_main_v36 (F := F) x1)) (val_main_v39 (F := F) x1)) := by
  after_results_simp
  rw [h5, h6, h29, h30]
  unfold val_main_v41 val_main_cst_8 val_main_v42 val_main_v36 val_main_v35 val_main_v32 val_main_v31 val_main_c_6 val_main_v34 val_main_v33
    val_main_c_7 val_main_v39 val_main_v38
  rfl

/-- Between regions 0 and 1: the first bias as a 1 × 128 array. -/
theorem bias128 (W : Valuation τ sig (Elt F)) :
    StableHlo.after hostOps1 W (Proc.devRef .tc main_v44) = shapeCast S1x128 (W (Proc.devRef .tc main_arg3)) shapeCasts_S128_S1x128 := by
  after_results_simp
  rfl

/-- Between regions 2 and 3: the second layer's weighted sum over incoming edges, from the product `Y` region 2 left. -/
theorem aggregate64 (W : Valuation τ sig (Elt F)) (x1 : (⟨Cert.ReferenceIdeal.S2x1600000, .i32⟩ : BufTy).Contents (Elt F))
    (Y : (⟨Cert.ReferenceIdeal.S100000x64, .f32⟩ : BufTy).Contents (Elt F))
    (h5 : W (Proc.devRef .tc main_v5) = val_main_v6 (F := F) x1) (h6 : W (Proc.devRef .tc main_v6) = val_main_v7 (F := F) x1)
    (h29 : W (Proc.devRef .tc main_v29) = val_main_v30 (F := F) x1) (h46 : W (Proc.devRef .tc main_v46) = Y) :
    StableHlo.after hostOps3 W (Proc.devRef .tc main_v59)
      = Host.scatterAdd Cert.ReferenceIdeal.scatter_S100000x64_S1700000x1_S1700000x64_1_0_0_1 (val_main_v85 (F := F)) (val_main_v86 (F := F) x1)
          (mulf (Host.gather Cert.ReferenceIdeal.gather_S100000x64_S1700000x1_S1700000x64_1_0_n_n_0_1_164 Y (val_main_v80 (F := F) x1)) (val_main_v83 (F := F) x1)) := by
  after_results_simp
  rw [h5, h6, h29, h46]
  unfold val_main_v85 val_main_cst_19 val_main_v86 val_main_v80 val_main_v79 val_main_v76 val_main_v75 val_main_c_17 val_main_v78 val_main_v77
    val_main_c_18 val_main_v83 val_main_v82
  rw [sources_again, targets_again, weights_again]
  rfl

/-- Between regions 2 and 3: the second bias as a 1 × 64 array. -/
theorem bias64 (W : Valuation τ sig (Elt F)) :
    StableHlo.after hostOps3 W (Proc.devRef .tc main_v60) = shapeCast S1x64 (W (Proc.devRef .tc main_arg5)) shapeCasts_S64_S1x64 := by
  after_results_simp
  rfl

end Cert.KernelIdeal.HostSide

end
-- ==== Proof.KernelValue.lean ====
/-
  The kernel's run at the ideal values, boundary by boundary: each buffer a later region or stretch reads is the
  reference's stage of the same role, as a function of the six argument arrays. The argument arrays and the edge data
  (sources, targets, weights) are written once and never again, so they reach every later boundary unchanged; a region's
  output array is its row formula of what the region was entered with; a host stretch is the reference's own operations.
  The last boundary's result buffer is therefore the reference's result.
-/
import proofs.«113558_j89859305766966_1_alg».proof.Proof.Gen.KernelIdeal.Frame
import proofs.«113558_j89859305766966_1_alg».proof.Proof.Blocks0
import proofs.«113558_j89859305766966_1_alg».proof.Proof.Blocks1
import proofs.«113558_j89859305766966_1_alg».proof.Proof.Blocks2
import proofs.«113558_j89859305766966_1_alg».proof.Proof.Blocks3
import proofs.«113558_j89859305766966_1_alg».proof.Proof.Products
import proofs.«113558_j89859305766966_1_alg».proof.Proof.BiasRelu
import proofs.«113558_j89859305766966_1_alg».proof.Proof.LogSoftmax
import proofs.«113558_j89859305766966_1_alg».proof.Proof.KernelHost
import proofs.«113558_j89859305766966_1_alg».proof.Proof.RefRead

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo Idealize.ShloMosaic.ValueIdx
open Cert.ReferenceIdeal.ReadP

/-- No operation of a literal stretch writes a literal buffer. -/
macro "unwritten" : tactic => `(tactic| (
  refine List.forall_iff_forall_mem.mp ?_
  simp only [hostOps0, hostOps0_1, hostOps0_2, hostOps1, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## What is written once stays -/

/-- A buffer the three stretches before region 0 do not write holds its launch contents at region 0's entry. -/
theorem entry0_keeps (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes) :
    W3 m ρ c (Proc.devRef .tc b) = m ((c : Thread nD τ).loc b) :=
  (StableHlo.after_of_forall_not_mem _ _ h2).trans ((StableHlo.after_of_forall_not_mem _ _ h1).trans
    ((StableHlo.after_of_forall_not_mem _ _ h0).trans rfl))

theorem entry0_arg0 : W3 m ρ c (Proc.devRef .tc main_arg0) = m ((c : Thread nD τ).loc main_arg0) :=
  entry0_keeps m ρ c main_arg0 (by unwritten) (by unwritten) (by unwritten)
theorem entry0_arg2 : W3 m ρ c (Proc.devRef .tc main_arg2) = m ((c : Thread nD τ).loc main_arg2) :=
  entry0_keeps m ρ c main_arg2 (by unwritten) (by unwritten) (by unwritten)
theorem entry0_arg3 : W3 m ρ c (Proc.devRef .tc main_arg3) = m ((c : Thread nD τ).loc main_arg3) :=
  entry0_keeps m ρ c main_arg3 (by unwritten) (by unwritten) (by unwritten)
theorem entry0_arg4 : W3 m ρ c (Proc.devRef .tc main_arg4) = m ((c : Thread nD τ).loc main_arg4) :=
  entry0_keeps m ρ c main_arg4 (by unwritten) (by unwritten) (by unwritten)
theorem entry0_arg5 : W3 m ρ c (Proc.devRef .tc main_arg5) = m ((c : Thread nD τ).loc main_arg5) :=
  entry0_keeps m ρ c main_arg5 (by unwritten) (by unwritten) (by unwritten)

/-- The edge list, as launched. -/
abbrev edges : (⟨Cert.ReferenceIdeal.S2x1600000, .i32⟩ : BufTy).Contents (Elt Ideal) := m ((c : Thread nD τ).loc main_arg1)

theorem entry0_sources : W3 m ρ c (Proc.devRef .tc main_v5) = val_main_v6 (F := Ideal) (edges m c) := HostSide.sources (W0 m ρ c)
theorem entry0_targets : W3 m ρ c (Proc.devRef .tc main_v6) = val_main_v7 (F := Ideal) (edges m c) := HostSide.targets (W0 m ρ c)
theorem entry0_weights : W3 m ρ c (Proc.devRef .tc main_v29) = val_main_v30 (F := Ideal) (edges m c) := HostSide.weights (W0 m ρ c)

/-- Two functions of a rank-2 index agree if they agree at every pair of coordinates. -/
theorem funext_ix2 {n0 n1 : ℕ} {α : Type} {f g : (⟨2, ![n0, n1]⟩ : Shape).Idx → α}
    (h : ∀ (r : Fin n0) (q : Fin n1), f (ix2 r q) = g (ix2 r q)) : f = g :=
  funext fun i => by rw [eq_ix2 i]; exact h _ _

/-- The argument arrays, as launched. -/
abbrev features : (⟨Cert.ReferenceIdeal.S100000x128, .f32⟩ : BufTy).Contents (Elt Ideal) := m ((c : Thread nD τ).loc main_arg0)
abbrev weight1 : (⟨Cert.ReferenceIdeal.S128x128, .f32⟩ : BufTy).Contents (Elt Ideal) := m ((c : Thread nD τ).loc main_arg2)
abbrev bias1 : (⟨Cert.ReferenceIdeal.S128, .f32⟩ : BufTy).Contents (Elt Ideal) := m ((c : Thread nD τ).loc main_arg3)
abbrev weight2 : (⟨Cert.ReferenceIdeal.S128x64, .f32⟩ : BufTy).Contents (Elt Ideal) := m ((c : Thread nD τ).loc main_arg4)
abbrev bias2 : (⟨Cert.ReferenceIdeal.S64, .f32⟩ : BufTy).Contents (Elt Ideal) := m ((c : Thread nD τ).loc main_arg5)

/-! ## Region 0: the first product -/

theorem exit0_product : W4 m ρ c (Proc.devRef .tc main_v30) = val_main_v4 (F := Ideal) (features m c) (weight1 m c) := by
  have hW : W4 m ρ c (Proc.devRef .tc main_v30) = (dat0 (V3 m ρ) c).arrAt 2 cfg0.N := W4_arr m ρ c 2
  rw [hW, Blocks0.final (V3 m ρ) c]
  show Blocks0.rows (W3 m ρ c (Proc.devRef .tc main_arg0)) (W3 m ρ c (Proc.devRef .tc main_arg2)) = _
  rw [entry0_arg0, entry0_arg2]
  refine funext_ix2 fun r q => ?_
  rw [Products.rows0_apply]
  unfold val_main_v4
  exact (Products.host_dot128_apply _ _ r q).symm

theorem exit0_sources : W4 m ρ c (Proc.devRef .tc main_v5) = val_main_v6 (F := Ideal) (edges m c) :=
  (W4_of_ne m ρ c main_v5 (by decide)).trans (entry0_sources m ρ c)
theorem exit0_targets : W4 m ρ c (Proc.devRef .tc main_v6) = val_main_v7 (F := Ideal) (edges m c) :=
  (W4_of_ne m ρ c main_v6 (by decide)).trans (entry0_targets m ρ c)
theorem exit0_weights : W4 m ρ c (Proc.devRef .tc main_v29) = val_main_v30 (F := Ideal) (edges m c) :=
  (W4_of_ne m ρ c main_v29 (by decide)).trans (entry0_weights m ρ c)

/-! ## Between regions 0 and 1: the first weighted sum over incoming edges, and the first bias -/

theorem entry1_sum : W5 m ρ c (Proc.devRef .tc main_v43) = val_main_v43 (F := Ideal) (features m c) (edges m c) (weight1 m c) :=
  (HostSide.aggregate128 (W4 m ρ c) (edges m c) _ (exit0_sources m ρ c) (exit0_targets m ρ c) (exit0_weights m ρ c)
    (exit0_product m ρ c)).trans (by unfold val_main_v43 val_main_v40 val_main_v37; rfl)

theorem entry1_bias : W5 m ρ c (Proc.devRef .tc main_v44) = shapeCast S1x128 (bias1 m c) shapeCasts_S128_S1x128 :=
  (HostSide.bias128 (W4 m ρ c)).trans
    (congrArg (fun v => shapeCast S1x128 v shapeCasts_S128_S1x128) ((W4_of_ne m ρ c main_arg3 (by decide)).trans (entry0_arg3 m ρ c)))

/-- A buffer neither region 0 nor the stretch after it writes: at region 1's entry it holds what it held at region 0's. -/
theorem entry1_keeps (b : Ref sig .tc) (hb : ∀ w, Pipeline.arrRef spec0 w ≠ b)
    (h : ∀ op ∈ (hostOps1 : List (HloOp τ sig (Elt Ideal))), Proc.devRef .tc b ∉ op.writes) :
    W5 m ρ c (Proc.devRef .tc b) = W3 m ρ c (Proc.devRef .tc b) :=
  (StableHlo.after_of_forall_not_mem _ _ h).trans (W4_of_ne m ρ c b hb)

/-! ## Region 1: the bias and the maximum with zero -/

theorem exit1_hidden : W6 m ρ c (Proc.devRef .tc main_v45)
    = val_main_v47 (F := Ideal) (features m c) (edges m c) (weight1 m c) (bias1 m c) := by
  have hW : W6 m ρ c (Proc.devRef .tc main_v45) = (dat1 (V5 m ρ) c).arrAt 2 cfg1.N := W6_arr m ρ c 2
  rw [hW, Blocks1.final (V5 m ρ) c]
  show Blocks1.rows (W5 m ρ c (Proc.devRef .tc main_v43)) (W5 m ρ c (Proc.devRef .tc main_v44)) = _
  rw [entry1_sum, entry1_bias]
  refine funext_ix2 fun r q => ?_
  rw [BiasRelu.rows1_apply, BiasRelu.reshaped_row]
  unfold val_main_v47 val_main_v46 val_main_v45 val_main_v44 val_main_call1_v0 val_main_call1_cst
  exact (BiasRelu.host_apply _ _ r q).symm

/-- A buffer that regions 0, 1 and the stretch between them do not write, at region 2's entry. -/
theorem entry2_keeps (b : Ref sig .tc) (hb0 : ∀ w, Pipeline.arrRef spec0 w ≠ b) (hb1 : ∀ w, Pipeline.arrRef spec1 w ≠ b)
    (h : ∀ op ∈ (hostOps1 : List (HloOp τ sig (Elt Ideal))), Proc.devRef .tc b ∉ op.writes) :
    W6 m ρ c (Proc.devRef .tc b) = W3 m ρ c (Proc.devRef .tc b) :=
  (W6_of_ne m ρ c b hb1).trans (entry1_keeps m ρ c b hb0 h)

/-! ## Region 2: the second product -/

theorem exit2_product : W7 m ρ c (Proc.devRef .tc main_v46)
    = val_main_v48 (F := Ideal) (features m c) (edges m c) (weight1 m c) (bias1 m c) (weight2 m c) := by
  have hW : W7 m ρ c (Proc.devRef .tc main_v46) = (dat2 (V6 m ρ) c).arrAt 2 cfg2.N := W7_arr m ρ c 2
  rw [hW, Blocks2.final (V6 m ρ) c]
  show Blocks2.rows (W6 m ρ c (Proc.devRef .tc main_v45)) (W6 m ρ c (Proc.devRef .tc main_arg4)) = _
  rw [exit1_hidden, entry2_keeps m ρ c main_arg4 (by decide) (by decide) (by unwritten), entry0_arg4]
  refine funext_ix2 fun r q => ?_
  rw [Products.rows2_apply]
  unfold val_main_v48
  exact (Products.host_dot64_apply _ _ r q).symm

/-- A buffer that regions 0, 1, 2 and the stretch after region 0 do not write, at region 2's exit. -/
theorem exit2_keeps (b : Ref sig .tc) (hb0 : ∀ w, Pipeline.arrRef spec0 w ≠ b) (hb1 : ∀ w, Pipeline.arrRef spec1 w ≠ b)
    (hb2 : ∀ w, Pipeline.arrRef spec2 w ≠ b)
    (h : ∀ op ∈ (hostOps1 : List (HloOp τ sig (Elt Ideal))), Proc.devRef .tc b ∉ op.writes) :
    W7 m ρ c (Proc.devRef .tc b) = W3 m ρ c (Proc.devRef .tc b) :=
  (W7_of_ne m ρ c b hb2).trans (entry2_keeps m ρ c b hb0 hb1 h)

/-! ## Between regions 2 and 3: the second weighted sum over incoming edges, and the second bias -/

theorem entry3_sum : W8 m ρ c (Proc.devRef .tc main_v59)
    = val_main_v87 (F := Ideal) (features m c) (edges m c) (weight1 m c) (bias1 m c) (weight2 m c) :=
  (HostSide.aggregate64 (W7 m ρ c) (edges m c) _
    ((exit2_keeps m ρ c main_v5 (by decide) (by decide) (by decide) (by unwritten)).trans (entry0_sources m ρ c))
    ((exit2_keeps m ρ c main_v6 (by decide) (by decide) (by decide) (by unwritten)).trans (entry0_targets m ρ c))
    ((exit2_keeps m ρ c main_v29 (by decide) (by decide) (by decide) (by unwritten)).trans (entry0_weights m ρ c))
    (exit2_product m ρ c)).trans (by unfold val_main_v87 val_main_v84 val_main_v81; rfl)

theorem entry3_bias : W8 m ρ c (Proc.devRef .tc main_v60) = shapeCast S1x64 (bias2 m c) shapeCasts_S64_S1x64 :=
  (HostSide.bias64 (W7 m ρ c)).trans
    (congrArg (fun v => shapeCast S1x64 v shapeCasts_S64_S1x64)
      ((exit2_keeps m ρ c main_arg5 (by decide) (by decide) (by decide) (by unwritten)).trans (entry0_arg5 m ρ c)))

/-! ## Region 3: the bias and the log-softmax of each row — the result -/

/-- The reference's last stage is its host log-softmax of the stage before, at any float instance. -/
theorem ref_result_eq {F : FTy → Type} [FloatOps F] (x0 : (⟨Cert.ReferenceIdeal.S100000x128, .f32⟩ : BufTy).Contents (Elt F))
    (x1 : (⟨Cert.ReferenceIdeal.S2x1600000, .i32⟩ : BufTy).Contents (Elt F))
    (x2 : (⟨Cert.ReferenceIdeal.S128x128, .f32⟩ : BufTy).Contents (Elt F)) (x3 : (⟨Cert.ReferenceIdeal.S128, .f32⟩ : BufTy).Contents (Elt F))
    (x4 : (⟨Cert.ReferenceIdeal.S128x64, .f32⟩ : BufTy).Contents (Elt F)) (x5 : (⟨Cert.ReferenceIdeal.S64, .f32⟩ : BufTy).Contents (Elt F)) :
    val_main_v91 (F := F) x0 x1 x2 x3 x4 x5 = LogSoftmax.hostLogSoftmax (F := F) (val_main_v90 (F := F) x0 x1 x2 x3 x4 x5) := by
  unfold val_main_v91 val_main_call3_v10 val_main_call3_v9 val_main_call3_v8 val_main_call3_v7 val_main_call3_cst_1 val_main_call3_v6
    val_main_call3_v5 val_main_call3_v4 val_main_call3_v3 val_main_call3_v2 val_main_call3_v1 val_main_call3_cst_0 val_main_call3_v0
    val_main_call3_cst LogSoftmax.hostLogSoftmax
  rfl

theorem result : W9 m ρ c (Proc.devRef .tc main_v61)
    = val_main_v91 (F := Ideal) (features m c) (edges m c) (weight1 m c) (bias1 m c) (weight2 m c) (bias2 m c) := by
  have hW : W9 m ρ c (Proc.devRef .tc main_v61) = (dat3 (V8 m ρ) c).arrAt 2 cfg3.N := W9_arr m ρ c 2
  rw [hW, Blocks3.final (V8 m ρ) c]
  show Blocks3.rows (W8 m ρ c (Proc.devRef .tc main_v59)) (W8 m ρ c (Proc.devRef .tc main_v60)) = _
  rw [entry3_sum, entry3_bias, ref_result_eq]
  refine funext_ix2 fun r q => ?_
  rw [LogSoftmax.rows3_apply, LogSoftmax.hostLogSoftmax_apply]
  refine congrArg (fun y => Cert.Spec.logSoftmaxRow y q) (funext fun j => ?_)
  rw [BiasRelu.reshaped_row]
  unfold val_main_v90 val_main_v89 val_main_v88
  exact (BiasRelu.host_addBias64_apply _ _ r j).symm

end Cert.KernelIdeal.Boundaries

end
-- ==== Proof.RefChunks.lean ====
/-
  The reference's host operations, cut into four consecutive stretches at the stage boundaries; the whole list is their
  concatenation. The text of each operation is the operation list's own line.
-/
import proofs.«113558_j89859305766966_1_alg».proof.Proof.RefRun

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- Operations 0 … 40: the first layer's edge data and first product (through main_v30). -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v5 (iotaInDim S100000 32 0),
    binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf (F := F) .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v6 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v6 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]

/-- Operations 41 … 62: the first aggregation, bias and maximum (through main_v47). -/
abbrev opsB : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v6 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v4 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v7 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

/-- Operations 63 … 99: the second product and the second copy of the edge data (through main_v74). -/
abbrev opsC : List (HloOp τ sig (Elt F)) :=
  [ binary main_v47 main_arg4 main_v48 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_v49 (iotaInDim S100000 32 0),
    binary main_v1 main_v49 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v49 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v52 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf (F := F) .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_13 (constantI S_ 32 0#32),
    unary main_c_13 main_v60 (broadcastInDim S1700000 ![] bcast_S_S1700000 : (⟨S_, .i32⟩ : BufTy).Contents (Elt F) → (⟨S1700000, .i32⟩ : BufTy).Contents (Elt F)),
    binary main_v50 main_v60 main_v61 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v62 (broadcastInDim S1700000 ![] bcast_S_S1700000 : (⟨S_, .i32⟩ : BufTy).Contents (Elt F) → (⟨S1700000, .i32⟩ : BufTy).Contents (Elt F)),
    binary main_v50 main_v62 main_v63 (addi : (⟨S1700000, .i32⟩ : BufTy).Contents (Elt F) → (⟨S1700000, .i32⟩ : BufTy).Contents (Elt F) → (⟨S1700000, .i32⟩ : BufTy).Contents (Elt F)),
    ternary main_v61 main_v63 main_v50 main_v64 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v64 main_v65 (broadcastInDim S1700000x1 ![0] bcast_S1700000_S1700000x1_0 : (⟨S1700000, .i32⟩ : BufTy).Contents (Elt F) → (⟨S1700000x1, .i32⟩ : BufTy).Contents (Elt F)),
    binary main_v59 main_v65 main_v66 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v67 (broadcastInDim S1700000 ![] bcast_S_S1700000 : (⟨S_, .i32⟩ : BufTy).Contents (Elt F) → (⟨S1700000, .i32⟩ : BufTy).Contents (Elt F)),
    binary main_v51 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v69 (broadcastInDim S1700000 ![] bcast_S_S1700000 : (⟨S_, .i32⟩ : BufTy).Contents (Elt F) → (⟨S1700000, .i32⟩ : BufTy).Contents (Elt F)),
    binary main_v51 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v51 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v59 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v66 main_v73 main_v74 (mulf : (⟨S1700000, .f32⟩ : BufTy).Contents (Elt F) → (⟨S1700000, .f32⟩ : BufTy).Contents (Elt F) → (⟨S1700000, .f32⟩ : BufTy).Contents (Elt F)) ]

/-- Operations 100 … 133: the second aggregation, bias and log-softmax (through main_v91). -/
abbrev opsD : List (HloOp τ sig (Elt F)) :=
  [ nullary main_c_17 (constantI S_ 32 0#32),
    unary main_c_17 main_v75 (broadcastInDim S1700000 ![] bcast_S_S1700000 : (⟨S_, .i32⟩ : BufTy).Contents (Elt F) → (⟨S1700000, .i32⟩ : BufTy).Contents (Elt F)),
    binary main_v50 main_v75 main_v76 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v77 (broadcastInDim S1700000 ![] bcast_S_S1700000 : (⟨S_, .i32⟩ : BufTy).Contents (Elt F) → (⟨S1700000, .i32⟩ : BufTy).Contents (Elt F)),
    binary main_v50 main_v77 main_v78 (addi : (⟨S1700000, .i32⟩ : BufTy).Contents (Elt F) → (⟨S1700000, .i32⟩ : BufTy).Contents (Elt F) → (⟨S1700000, .i32⟩ : BufTy).Contents (Elt F)),
    ternary main_v76 main_v78 main_v50 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v79 main_v80 (broadcastInDim S1700000x1 ![0] bcast_S1700000_S1700000x1_0 : (⟨S1700000, .i32⟩ : BufTy).Contents (Elt F) → (⟨S1700000x1, .i32⟩ : BufTy).Contents (Elt F)),
    binary main_v48 main_v80 main_v81 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v74 main_v82 (broadcastInDim S1700000x1 ![0] bcast_S1700000_S1700000x1_0 : (⟨S1700000, .f32⟩ : BufTy).Contents (Elt F) → (⟨S1700000x1, .f32⟩ : BufTy).Contents (Elt F)),
    unary main_v82 main_v83 (broadcastInDim S1700000x64 ![0, 1] bcast_S1700000x1_S1700000x64_0_1 : (⟨S1700000x1, .f32⟩ : BufTy).Contents (Elt F) → (⟨S1700000x64, .f32⟩ : BufTy).Contents (Elt F)),
    binary main_v81 main_v83 main_v84 (mulf : (⟨S1700000x64, .f32⟩ : BufTy).Contents (Elt F) → (⟨S1700000x64, .f32⟩ : BufTy).Contents (Elt F) → (⟨S1700000x64, .f32⟩ : BufTy).Contents (Elt F)),
    nullary main_cst_19 (constant S_ .f32 0x00000000#32),
    unary main_cst_19 main_v85 (broadcastInDim S100000x64 ![] bcast_S_S100000x64 : (⟨S_, .f32⟩ : BufTy).Contents (Elt F) → (⟨S100000x64, .f32⟩ : BufTy).Contents (Elt F)),
    unary main_v51 main_v86 (broadcastInDim S1700000x1 ![0] bcast_S1700000_S1700000x1_0 : (⟨S1700000, .i32⟩ : BufTy).Contents (Elt F) → (⟨S1700000x1, .i32⟩ : BufTy).Contents (Elt F)),
    ternary main_v85 main_v86 main_v84 main_v87 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v88 (broadcastInDim S1x64 ![1] bcast_S64_S1x64_1 : (⟨S64, .f32⟩ : BufTy).Contents (Elt F) → (⟨S1x64, .f32⟩ : BufTy).Contents (Elt F)),
    unary main_v88 main_v89 (broadcastInDim S100000x64 ![0, 1] bcast_S1x64_S100000x64_0_1 : (⟨S1x64, .f32⟩ : BufTy).Contents (Elt F) → (⟨S100000x64, .f32⟩ : BufTy).Contents (Elt F)),
    binary main_v87 main_v89 main_v90 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0xFF800000#32),
    TRef.binary (TRef.of (T := ⟨S100000x64, .f32⟩) main_v90) (TRef.of (T := ⟨S_, .f32⟩) main_call3_cst) (TRef.of (T := ⟨S100000, .f32⟩) main_call3_v0) (fun x v => Host.reduce FloatOps.maximumf x v reducesTo_S100000x64_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x64, .f32⟩) main_call3_v4) (broadcastInDim S100000x64 ![0, 1] bcast_S100000x1_S100000x64_0_1),
    TRef.binary (TRef.of (T := ⟨S100000x64, .f32⟩) main_v90) (TRef.of (T := ⟨S100000x64, .f32⟩) main_call3_v4) (TRef.of (T := ⟨S100000x64, .f32⟩) main_call3_v5) subf,
    TRef.unary (TRef.of (T := ⟨S100000x64, .f32⟩) main_call3_v5) (TRef.of (T := ⟨S100000x64, .f32⟩) main_call3_v6) Host.exp,
    TRef.nullary (TRef.of (T := ⟨S_, .f32⟩) main_call3_cst_1) (constant S_ .f32 0x00000000#32),
    TRef.binary (TRef.of (T := ⟨S100000x64, .f32⟩) main_call3_v6) (TRef.of (T := ⟨S_, .f32⟩) main_call3_cst_1) (TRef.of (T := ⟨S100000, .f32⟩) main_call3_v7) (fun x v => Host.reduceAdd x v reducesTo_S100000x64_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x64, .f32⟩) main_call3_v10) (broadcastInDim S100000x64 ![0, 1] bcast_S100000x1_S100000x64_0_1),
    TRef.binary (TRef.of (T := ⟨S100000x64, .f32⟩) main_call3_v5) (TRef.of (T := ⟨S100000x64, .f32⟩) main_call3_v10) (TRef.of (T := ⟨S100000x64, .f32⟩) main_v91) subf ]

set_option maxRecDepth 8192 in
/-- The whole list is the four stretches in order. -/
theorem ops_split : (ops : List (HloOp τ sig (Elt F))) = opsA ++ opsB ++ opsC ++ opsD := rfl

end Cert.ReferenceIdeal.ValueP

end
-- ==== Proof.LibTRef.lean ====
/-
  A typed reference's two transports cancel. A module-local function's operation reads each operand by carrying the
  buffer's contents to the value's type and writes its result by carrying it back; the value's type IS the buffer's, so a
  result read by the next operation is the value itself.
-/
import Idealize.ShloMosaic.Lib.StableHlo

namespace Idealize.ShloMosaic.StableHlo.TRef

/-- Contents carried to a buffer's own type and back are themselves. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

end Idealize.ShloMosaic.StableHlo.TRef
-- ==== Proof.RefRunStaged.lean ====
/-
  The reference's run, stage by stage. Its @main is 134 host operations in a line; run in order from the launch contents they
  leave each buffer at the composition of the operations before it. Read in four consecutive stretches, each from whatever
  contents it is entered with, the result buffer ends at the reference's last stage of the six argument arrays, and no
  operation writes an argument. Every stretch is read at any float instance.
-/
import proofs.«113558_j89859305766966_1_alg».proof.Proof.RefChunks
import proofs.«113558_j89859305766966_1_alg».proof.Proof.RefRead
import proofs.«113558_j89859305766966_1_alg».proof.Proof.LibTRef

set_option maxRecDepth 16384

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The rewriting half of `after_results`: each operation's result at its own buffer, and at any other buffer what was
    there, until none applies (it also rewrites inside a concatenate's operand list, which a simp pass leaves). -/
macro "after_results_rw" : tactic =>
  `(tactic| (repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## Stretch A: the first layer's edge data and the first product -/

theorem stretchA_v1 (W : Valuation τ sig (Elt F)) :
    StableHlo.after opsA W (Proc.devRef .tc main_v1) = val_main_v1 (F := F) (W (Proc.devRef .tc main_arg1)) := by
  after_results
  rfl
theorem stretchA_v3 (W : Valuation τ sig (Elt F)) :
    StableHlo.after opsA W (Proc.devRef .tc main_v3) = val_main_v3 (F := F) (W (Proc.devRef .tc main_arg1)) := by
  after_results
  rfl
theorem stretchA_v4 (W : Valuation τ sig (Elt F)) :
    StableHlo.after opsA W (Proc.devRef .tc main_v4) = val_main_v4 (F := F) (W (Proc.devRef .tc main_arg0)) (W (Proc.devRef .tc main_arg2)) := by
  after_results
  rfl
theorem stretchA_v6 (W : Valuation τ sig (Elt F)) :
    StableHlo.after opsA W (Proc.devRef .tc main_v6) = val_main_v6 (F := F) (W (Proc.devRef .tc main_arg1)) := by
  after_results
  rfl
theorem stretchA_v7 (W : Valuation τ sig (Elt F)) :
    StableHlo.after opsA W (Proc.devRef .tc main_v7) = val_main_v7 (F := F) (W (Proc.devRef .tc main_arg1)) := by
  after_results
  rfl
theorem stretchA_v30 (W : Valuation τ sig (Elt F)) :
    StableHlo.after opsA W (Proc.devRef .tc main_v30) = val_main_v30 (F := F) (W (Proc.devRef .tc main_arg1)) := by
  after_results_simp
  after_results_rw
  rfl

/-! ## Stretch B: the first aggregation, the bias and the maximum with zero -/

theorem stretchB_v47 (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F))
    (h4 : W (Proc.devRef .tc main_v4) = val_main_v4 (F := F) x0 x2) (h6 : W (Proc.devRef .tc main_v6) = val_main_v6 (F := F) x1)
    (h7 : W (Proc.devRef .tc main_v7) = val_main_v7 (F := F) x1) (h30 : W (Proc.devRef .tc main_v30) = val_main_v30 (F := F) x1) :
    StableHlo.after opsB W (Proc.devRef .tc main_v47) = val_main_v47 (F := F) x0 x1 x2 (W (Proc.devRef .tc main_arg3)) := by
  after_results_simp
  after_results_rw
  rw [h4, h6, h7, h30]
  rfl

/-! ## Stretch C: the second product and the second copy of the edge data -/

theorem stretchC_v48 (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F))
    (h47 : W (Proc.devRef .tc main_v47) = val_main_v47 (F := F) x0 x1 x2 x3) :
    StableHlo.after opsC W (Proc.devRef .tc main_v48) = val_main_v48 (F := F) x0 x1 x2 x3 (W (Proc.devRef .tc main_arg4)) := by
  after_results
  rw [h47]
  rfl
theorem stretchC_v50 (W : Valuation τ sig (Elt F)) (x1 : (⟨S2x1600000, .i32⟩ : BufTy).Contents (Elt F)) (h1 : W (Proc.devRef .tc main_v1) = val_main_v1 (F := F) x1) :
    StableHlo.after opsC W (Proc.devRef .tc main_v50) = val_main_v50 (F := F) x1 := by
  after_results
  rw [h1]
  rfl
theorem stretchC_v51 (W : Valuation τ sig (Elt F)) (x1 : (⟨S2x1600000, .i32⟩ : BufTy).Contents (Elt F)) (h3 : W (Proc.devRef .tc main_v3) = val_main_v3 (F := F) x1) :
    StableHlo.after opsC W (Proc.devRef .tc main_v51) = val_main_v51 (F := F) x1 := by
  after_results
  rw [h3]
  rfl
theorem stretchC_v74 (W : Valuation τ sig (Elt F)) (x1 : (⟨S2x1600000, .i32⟩ : BufTy).Contents (Elt F)) (h1 : W (Proc.devRef .tc main_v1) = val_main_v1 (F := F) x1)
    (h3 : W (Proc.devRef .tc main_v3) = val_main_v3 (F := F) x1) :
    StableHlo.after opsC W (Proc.devRef .tc main_v74) = val_main_v74 (F := F) x1 := by
  after_results_simp
  after_results_rw
  rw [h1, h3]
  rfl

/-! ## Stretch D: the second aggregation, the bias and the log-softmax -/

/-- A line read in two parts: the first `n` operations, then the rest from what they leave. -/
theorem after_take_drop (n : ℕ) (l : List (HloOp τ sig (Elt F))) (V : Valuation τ sig (Elt F)) :
    StableHlo.after l V = StableHlo.after (l.drop n) (StableHlo.after (l.take n) V) := by
  rw [← StableHlo.after_append, List.take_append_drop]

/-- The result buffer's contents carried to its own type are themselves. -/
theorem toBuf_main_v91 (v : (⟨S100000x64, .f32⟩ : BufTy).Contents (Elt F)) :
    (TRef.of (T := ⟨S100000x64, .f32⟩) main_v91 : TRef sig _).toBuf (Val := Elt F) v = v := rfl

/-- Stretch D's first 19 operations: the second aggregation and the bias, through main_v90. -/
theorem stretchD_head (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F))
    (h48 : W (Proc.devRef .tc main_v48) = val_main_v48 (F := F) x0 x1 x2 x3 x4) (h50 : W (Proc.devRef .tc main_v50) = val_main_v50 (F := F) x1)
    (h51 : W (Proc.devRef .tc main_v51) = val_main_v51 (F := F) x1) (h74 : W (Proc.devRef .tc main_v74) = val_main_v74 (F := F) x1) :
    StableHlo.after (opsD.take 19) W (Proc.devRef .tc main_v90) = val_main_v90 (F := F) x0 x1 x2 x3 x4 (W (Proc.devRef .tc main_arg5)) := by
  simp only [opsD, List.take_succ_cons, List.take_zero]
  after_results_simp
  rw [h48, h50, h51, h74]
  rfl

/-- Stretch D's last 15 operations, the inlined log-softmax, from whatever contents hold its operand main_v90. -/
theorem stretchD_tail (V : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (h90 : (TRef.of (T := ⟨S100000x64, .f32⟩) main_v90 : TRef sig _).ofBuf (V (Proc.devRef .tc main_v90)) = val_main_v90 (F := F) x0 x1 x2 x3 x4 x5) :
    StableHlo.after (opsD.drop 19) V (Proc.devRef .tc main_v91) = val_main_v91 (F := F) x0 x1 x2 x3 x4 x5 := by
  simp only [opsD, List.drop_succ_cons, List.drop_zero]
  after_results_simp
  simp only [TRef.ofBuf_toBuf]
  rw [h90]
  refine (toBuf_main_v91 _).trans ?_
  rfl

theorem stretchD_v91 (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F))
    (h48 : W (Proc.devRef .tc main_v48) = val_main_v48 (F := F) x0 x1 x2 x3 x4) (h50 : W (Proc.devRef .tc main_v50) = val_main_v50 (F := F) x1)
    (h51 : W (Proc.devRef .tc main_v51) = val_main_v51 (F := F) x1) (h74 : W (Proc.devRef .tc main_v74) = val_main_v74 (F := F) x1) :
    StableHlo.after opsD W (Proc.devRef .tc main_v91) = val_main_v91 (F := F) x0 x1 x2 x3 x4 (W (Proc.devRef .tc main_arg5)) := by
  rw [after_take_drop 19 opsD W]
  exact stretchD_tail _ x0 x1 x2 x3 x4 (W (Proc.devRef .tc main_arg5)) (stretchD_head W x0 x1 x2 x3 x4 h48 h50 h51 h74)

/-! ## What a stretch leaves alone -/

theorem keepA_arg3 (V : Valuation τ sig (Elt F)) : StableHlo.after opsA V (Proc.devRef .tc main_arg3) = V (Proc.devRef .tc main_arg3) := by
  after_results_simp
theorem keepA_arg4 (V : Valuation τ sig (Elt F)) : StableHlo.after opsA V (Proc.devRef .tc main_arg4) = V (Proc.devRef .tc main_arg4) := by
  after_results_simp
theorem keepA_arg5 (V : Valuation τ sig (Elt F)) : StableHlo.after opsA V (Proc.devRef .tc main_arg5) = V (Proc.devRef .tc main_arg5) := by
  after_results_simp
theorem keepB_v1 (V : Valuation τ sig (Elt F)) : StableHlo.after opsB V (Proc.devRef .tc main_v1) = V (Proc.devRef .tc main_v1) := by
  after_results_simp
theorem keepB_v3 (V : Valuation τ sig (Elt F)) : StableHlo.after opsB V (Proc.devRef .tc main_v3) = V (Proc.devRef .tc main_v3) := by
  after_results_simp
theorem keepB_arg4 (V : Valuation τ sig (Elt F)) : StableHlo.after opsB V (Proc.devRef .tc main_arg4) = V (Proc.devRef .tc main_arg4) := by
  after_results_simp
theorem keepB_arg5 (V : Valuation τ sig (Elt F)) : StableHlo.after opsB V (Proc.devRef .tc main_arg5) = V (Proc.devRef .tc main_arg5) := by
  after_results_simp
theorem keepC_arg5 (V : Valuation τ sig (Elt F)) : StableHlo.after opsC V (Proc.devRef .tc main_arg5) = V (Proc.devRef .tc main_arg5) := by
  after_results_simp

/-! ## The whole line -/

/-- After all 134 operations the result buffer holds the last stage of the argument arrays. -/
theorem result_eq (W : Valuation τ sig (Elt F)) :
    StableHlo.after ops W (Proc.devRef .tc main_v91) = val_main_v91 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [ops_split, StableHlo.after_append, StableHlo.after_append, StableHlo.after_append]
  -- stretch B from what stretch A leaves
  have hB47 := (stretchB_v47 (StableHlo.after opsA W) _ _ _ (stretchA_v4 W) (stretchA_v6 W) (stretchA_v7 W) (stretchA_v30 W)).trans
    (congrArg (val_main_v47 (F := F) _ _ _) (keepA_arg3 W))
  have hB1 := (keepB_v1 (StableHlo.after opsA W)).trans (stretchA_v1 W)
  have hB3 := (keepB_v3 (StableHlo.after opsA W)).trans (stretchA_v3 W)
  -- stretch C from what stretch B leaves
  have hC48 := (stretchC_v48 (StableHlo.after opsB (StableHlo.after opsA W)) _ _ _ _ hB47).trans
    (congrArg (val_main_v48 (F := F) _ _ _ _) ((keepB_arg4 _).trans (keepA_arg4 W)))
  -- stretch D from what stretch C leaves
  have hD := stretchD_v91 (StableHlo.after opsC (StableHlo.after opsB (StableHlo.after opsA W))) _ _ _ _ _ hC48
    (stretchC_v50 _ _ hB1) (stretchC_v51 _ _ hB3) (stretchC_v74 _ _ hB1 hB3)
  exact hD.trans (congrArg (val_main_v91 (F := F) _ _ _ _ _) ((keepC_arg5 _).trans ((keepB_arg5 _).trans (keepA_arg5 W))))

/-! No operation writes an argument. -/

theorem keep_arg0 (V : Valuation τ sig (Elt F)) : StableHlo.after ops V (Proc.devRef .tc main_arg0) = V (Proc.devRef .tc main_arg0) := by
  after_results_simp
theorem keep_arg1 (V : Valuation τ sig (Elt F)) : StableHlo.after ops V (Proc.devRef .tc main_arg1) = V (Proc.devRef .tc main_arg1) := by
  after_results_simp
theorem keep_arg2 (V : Valuation τ sig (Elt F)) : StableHlo.after ops V (Proc.devRef .tc main_arg2) = V (Proc.devRef .tc main_arg2) := by
  after_results_simp
theorem keep_arg3 (V : Valuation τ sig (Elt F)) : StableHlo.after ops V (Proc.devRef .tc main_arg3) = V (Proc.devRef .tc main_arg3) := by
  after_results_simp
theorem keep_arg4 (V : Valuation τ sig (Elt F)) : StableHlo.after ops V (Proc.devRef .tc main_arg4) = V (Proc.devRef .tc main_arg4) := by
  after_results_simp
theorem keep_arg5 (V : Valuation τ sig (Elt F)) : StableHlo.after ops V (Proc.devRef .tc main_arg5) = V (Proc.devRef .tc main_arg5) := by
  after_results_simp

/-- On every device, at any float instance, from any memory with zero counters: every weakly fair execution of @main
    terminates with the result at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (result_eq _),
      (h c main_arg0).trans (keep_arg0 _), (h c main_arg1).trans (keep_arg1 _), (h c main_arg2).trans (keep_arg2 _),
      (h c main_arg3).trans (keep_arg3 _), (h c main_arg4).trans (keep_arg4 _), (h c main_arg5).trans (keep_arg5 _)⟩)
    (run_seq scopedRefs_eq scopedSems_eq defs main (fun _ => ops) main_eq (fun _ => ops_sub) m ρ)

end Cert.ReferenceIdeal.ValueP

end
-- ==== Proof.lean ====
/-
  A two-layer graph convolution, kernel against reference, over the extended reals.
  Both programs compute, from node features x, an edge list and two weight–bias pairs:
    h = max (A (x · W₁) + b₁) 0,   result = log-softmax of each row of A (h · W₂) + b₂,
  where A adds, into every target node's row, the source node's row scaled by the edge's weight (the product of the inverse
  square roots of the two end nodes' degrees; every node gets a self-loop first). The reference does all of it on the host.
  The kernel does the edge arithmetic on the host with the same operations, and four stages in regions that sweep the
  100000 rows in bands of 2000: the two products (operands narrowed to bf16 first, which is the identity on the extended
  reals, accumulated from zero), the bias with the maximum, and the bias with the log-softmax. A row of any of these four
  depends only on the same row of its operand, so the bands' results pieced together are the whole-array formulas; the sums
  over the 128 shared coordinates, the row maxima and the row sums are the same finite sums and folds on both sides. No
  algebraic law beyond that is used, so the inputs' finiteness is not needed for the equality.
  The three programs' termination, no-fault and unchanged arguments are the generated frames (the reference's is its run
  with the result dropped); the idealization rewrote nothing, so `preserves` is trivial.
-/
import proofs.«113558_j89859305766966_1_alg».proof.Defs
import proofs.«113558_j89859305766966_1_alg».proof.Proof.Gen.Kernel
import proofs.«113558_j89859305766966_1_alg».proof.Proof.Gen.Kernel.Skeleton
import proofs.«113558_j89859305766966_1_alg».proof.Proof.Gen.Kernel.Launch
import proofs.«113558_j89859305766966_1_alg».proof.Proof.Gen.Kernel.Points
import proofs.«113558_j89859305766966_1_alg».proof.Proof.Gen.Kernel.Frame
import proofs.«113558_j89859305766966_1_alg».proof.Proof.Gen.KernelIdeal
import proofs.«113558_j89859305766966_1_alg».proof.Proof.Gen.KernelIdeal.Skeleton
import proofs.«113558_j89859305766966_1_alg».proof.Proof.Gen.KernelIdeal.Launch
import proofs.«113558_j89859305766966_1_alg».proof.Proof.Gen.KernelIdeal.Points
import proofs.«113558_j89859305766966_1_alg».proof.Proof.Gen.KernelIdeal.Frame
import proofs.«113558_j89859305766966_1_alg».proof.Proof.Gen.ReferenceIdeal
import proofs.«113558_j89859305766966_1_alg».proof.Proof.Gen.Pre_finite_inputs
import proofs.«113558_j89859305766966_1_alg».proof.Proof.KernelRun
import proofs.«113558_j89859305766966_1_alg».proof.Proof.KernelValue
import proofs.«113558_j89859305766966_1_alg».proof.Proof.RefRead
import proofs.«113558_j89859305766966_1_alg».proof.Proof.RefRunStaged
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result at the reference's last stage of the argument arrays: the kernel's by the boundaries of its
    run, the reference's by its run; the two memories agree on the arguments. -/
theorem algebraic : Cert.algebraic_KernelIdeal_ReferenceIdeal := by
  intro m ρ m' ρ' _ hagree
  refine ⟨fun c => Cert.ReferenceIdeal.ReadP.val_main_v91 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundaries.result m ρ c), (h c).2⟩)
      (Cert.KernelIdeal.GenP.run_named (F := Ideal) m ρ)
  · refine (θ_run Cert.ReferenceIdeal.defs _ _).mono (fun r h c => ⟨(h c).1.trans ?_, (h c).2⟩)
      (Cert.ReferenceIdeal.ValueP.run (F := Ideal) m' ρ')
    rw [(hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
